-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S768x784 : Shape := ⟨2, ![768, 784]⟩
abbrev S768 : Shape := ⟨1, ![768]⟩
abbrev S768x768 : Shape := ⟨2, ![768, 768]⟩
abbrev S10x768 : Shape := ⟨2, ![10, 768]⟩
abbrev S10 : Shape := ⟨1, ![10]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S768x784 : S_.BroadcastsInDim S768x784 (![] : Fin 0 → Fin S768x784.rank)
  reducesTo_S768x784_S_d0_1 : S768x784.ReducesTo [0, 1] S_
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_
  bcast_S_S10x768 : S_.BroadcastsInDim S10x768 (![] : Fin 0 → Fin S10x768.rank)
  reducesTo_S10x768_S_d0_1 : S10x768.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_v98 : IVec S_ 1) (main_v101 : IVec S768 1) (main_c_39 : IVec S_ 1) : IVec S_ 1 :=
  let main_v102 : IVec S_ 1 := (fun x v => Host.reduce IntOp.andi x v reducesTo_S768_S_d0 h_S_) main_v101 main_c_39
  let main_v103 : IVec S_ 1 := andi main_v98 main_v102
  main_v103

def fn_part5 {F : FTy → Type} [FloatOps F] (main_arg18 : FVec F S768 .f32) (main_arg19 : FVec F S768 .f32) (main_arg20 : FVec F S768 .f32) (main_v83 : IVec S_ 1) (main_v84 : FVec F S768 .f32) (main_cst_32 : FVec F S_ .f32) : IVec S_ 1 :=
  let main_v85 : FVec F S768 .f32 := broadcastInDim S768 ![] bcast_S_S768 main_cst_32
  let main_v86 : IVec S768 1 := cmpf .olt main_v84 main_v85
  let main_c_33 : IVec S_ 1 := constantI S_ 1 1#1
  let main_v87 : IVec S_ 1 := (fun x v => Host.reduce IntOp.andi x v reducesTo_S768_S_d0 h_S_) main_v86 main_c_33
  let main_v88 : IVec S_ 1 := andi main_v83 main_v87
  let main_v89 : FVec F S768 .f32 := Host.absf main_arg18
  let main_cst_34 : FVec F S_ .f32 := constant S_ .f32 0x7F800000#32
  let main_v90 : FVec F S768 .f32 := broadcastInDim S768 ![] bcast_S_S768 main_cst_34
  let main_v91 : IVec S768 1 := cmpf .olt main_v89 main_v90
  let main_c_35 : IVec S_ 1 := constantI S_ 1 1#1
  let main_v92 : IVec S_ 1 := (fun x v => Host.reduce IntOp.andi x v reducesTo_S768_S_d0 h_S_) main_v91 main_c_35
  let main_v93 : IVec S_ 1 := andi main_v88 main_v92
  let main_v94 : FVec F S768 .f32 := Host.absf main_arg19
  let main_cst_36 : FVec F S_ .f32 := constant S_ .f32 0x7F800000#32
  let main_v95 : FVec F S768 .f32 := broadcastInDim S768 ![] bcast_S_S768 main_cst_36
  let main_v96 : IVec S768 1 := cmpf .olt main_v94 main_v95
  let main_c_37 : IVec S_ 1 := constantI S_ 1 1#1
  let main_v97 : IVec S_ 1 := (fun x v => Host.reduce IntOp.andi x v reducesTo_S768_S_d0 h_S_) main_v96 main_c_37
  let main_v98 : IVec S_ 1 := andi main_v93 main_v97
  let main_v99 : FVec F S768 .f32 := Host.absf main_arg20
  let main_cst_38 : FVec F S_ .f32 := constant S_ .f32 0x7F800000#32
  let main_v100 : FVec F S768 .f32 := broadcastInDim S768 ![] bcast_S_S768 main_cst_38
  let main_v101 : IVec S768 1 := cmpf .olt main_v99 main_v100
  let main_c_39 : IVec S_ 1 := constantI S_ 1 1#1
  fn_part6 (F := F) main_v98 main_v101 main_c_39

def fn_part4 {F : FTy → Type} [FloatOps F] (main_arg14 : FVec F S768 .f32) (main_arg15 : FVec F S768 .f32) (main_arg16 : FVec F S768 .f32) (main_arg17 : FVec F S768 .f32) (main_arg18 : FVec F S768 .f32) (main_arg19 : FVec F S768 .f32) (main_arg20 : FVec F S768 .f32) (main_v63 : IVec S_ 1) (main_v67 : IVec S_ 1) : IVec S_ 1 :=
  let main_v68 : IVec S_ 1 := andi main_v63 main_v67
  let main_v69 : FVec F S768 .f32 := Host.absf main_arg14
  let main_cst_26 : FVec F S_ .f32 := constant S_ .f32 0x7F800000#32
  let main_v70 : FVec F S768 .f32 := broadcastInDim S768 ![] bcast_S_S768 main_cst_26
  let main_v71 : IVec S768 1 := cmpf .olt main_v69 main_v70
  let main_c_27 : IVec S_ 1 := constantI S_ 1 1#1
  let main_v72 : IVec S_ 1 := (fun x v => Host.reduce IntOp.andi x v reducesTo_S768_S_d0 h_S_) main_v71 main_c_27
  let main_v73 : IVec S_ 1 := andi main_v68 main_v72
  let main_v74 : FVec F S768 .f32 := Host.absf main_arg15
  let main_cst_28 : FVec F S_ .f32 := constant S_ .f32 0x7F800000#32
  let main_v75 : FVec F S768 .f32 := broadcastInDim S768 ![] bcast_S_S768 main_cst_28
  let main_v76 : IVec S768 1 := cmpf .olt main_v74 main_v75
  let main_c_29 : IVec S_ 1 := constantI S_ 1 1#1
  let main_v77 : IVec S_ 1 := (fun x v => Host.reduce IntOp.andi x v reducesTo_S768_S_d0 h_S_) main_v76 main_c_29
  let main_v78 : IVec S_ 1 := andi main_v73 main_v77
  let main_v79 : FVec F S768 .f32 := Host.absf main_arg16
  let main_cst_30 : FVec F S_ .f32 := constant S_ .f32 0x7F800000#32
  let main_v80 : FVec F S768 .f32 := broadcastInDim S768 ![] bcast_S_S768 main_cst_30
  let main_v81 : IVec S768 1 := cmpf .olt main_v79 main_v80
  let main_c_31 : IVec S_ 1 := constantI S_ 1 1#1
  let main_v82 : IVec S_ 1 := (fun x v => Host.reduce IntOp.andi x v reducesTo_S768_S_d0 h_S_) main_v81 main_c_31
  let main_v83 : IVec S_ 1 := andi main_v78 main_v82
  let main_v84 : FVec F S768 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S768 .f32) (main_arg12 : FVec F S768 .f32) (main_arg13 : FVec F S768 .f32) (main_arg14 : FVec F S768 .f32) (main_arg15 : FVec F S768 .f32) (main_arg16 : FVec F S768 .f32) (main_arg17 : FVec F S768 .f32) (main_arg18 : FVec F S768 .f32) (main_arg19 : FVec F S768 .f32) (main_arg20 : FVec F S768 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S768 .f32 := Host.absf main_arg11
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  let main_v59 : FVec F S768 .f32 := Host.absf main_arg12
  let main_cst_22 : FVec F S_ .f32 := constant S_ .f32 0x7F800000#32
  let main_v60 : FVec F S768 .f32 := broadcastInDim S768 ![] bcast_S_S768 main_cst_22
  let main_v61 : IVec S768 1 := cmpf .olt main_v59 main_v60
  let main_c_23 : IVec S_ 1 := constantI S_ 1 1#1
  let main_v62 : IVec S_ 1 := (fun x v => Host.reduce IntOp.andi x v reducesTo_S768_S_d0 h_S_) main_v61 main_c_23
  let main_v63 : IVec S_ 1 := andi main_v58 main_v62
  let main_v64 : FVec F S768 .f32 := Host.absf main_arg13
  let main_cst_24 : FVec F S_ .f32 := constant S_ .f32 0x7F800000#32
  let main_v65 : FVec F S768 .f32 := broadcastInDim S768 ![] bcast_S_S768 main_cst_24
  let main_v66 : IVec S768 1 := cmpf .olt main_v64 main_v65
  let main_c_25 : IVec S_ 1 := constantI S_ 1 1#1
  let main_v67 : IVec S_ 1 := (fun x v => Host.reduce IntOp.andi x v reducesTo_S768_S_d0 h_S_) main_v66 main_c_25
  fn_part4 (F := F) main_arg14 main_arg15 main_arg16 main_arg17 main_arg18 main_arg19 main_arg20 main_v63 main_v67

def fn_part2 {F : FTy → Type} [FloatOps F] (main_arg7 : FVec F S10x768 .f32) (main_arg8 : FVec F S10 .f32) (main_arg9 : FVec F S768 .f32) (main_arg10 : FVec F S768 .f32) (main_arg11 : FVec F S768 .f32) (main_arg12 : FVec F S768 .f32) (main_arg13 : FVec F S768 .f32) (main_arg14 : FVec F S768 .f32) (main_arg15 : FVec F S768 .f32) (main_arg16 : FVec F S768 .f32) (main_arg17 : FVec F S768 .f32) (main_arg18 : FVec F S768 .f32) (main_arg19 : FVec F S768 .f32) (main_arg20 : FVec F S768 .f32) (main_v33 : IVec S_ 1) : IVec S_ 1 :=
  let main_v34 : FVec F S10x768 .f32 := Host.absf main_arg7
  let main_cst_12 : FVec F S_ .f32 := constant S_ .f32 0x7F800000#32
  let main_v35 : FVec F S10x768 .f32 := broadcastInDim S10x768 ![] bcast_S_S10x768 main_cst_12
  let main_v36 : IVec S10x768 1 := cmpf .olt main_v34 main_v35
  let main_c_13 : IVec S_ 1 := constantI S_ 1 1#1
  let main_v37 : IVec S_ 1 := (fun x v => Host.reduce IntOp.andi x v reducesTo_S10x768_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S768 .f32) (main_arg5 : FVec F S768x768 .f32) (main_arg6 : FVec F S768 .f32) (main_arg7 : FVec F S10x768 .f32) (main_arg8 : FVec F S10 .f32) (main_arg9 : FVec F S768 .f32) (main_arg10 : FVec F S768 .f32) (main_arg11 : FVec F S768 .f32) (main_arg12 : FVec F S768 .f32) (main_arg13 : FVec F S768 .f32) (main_arg14 : FVec F S768 .f32) (main_arg15 : FVec F S768 .f32) (main_arg16 : FVec F S768 .f32) (main_arg17 : FVec F S768 .f32) (main_arg18 : FVec F S768 .f32) (main_arg19 : FVec F S768 .f32) (main_arg20 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S16384x784 .f32) (main_arg1 : FVec F S768x784 .f32) (main_arg2 : FVec F S768 .f32) (main_arg3 : FVec F S768x768 .f32) (main_arg4 : FVec F S768 .f32) (main_arg5 : FVec F S768x768 .f32) (main_arg6 : FVec F S768 .f32) (main_arg7 : FVec F S10x768 .f32) (main_arg8 : FVec F S10 .f32) (main_arg9 : FVec F S768 .f32) (main_arg10 : FVec F S768 .f32) (main_arg11 : FVec F S768 .f32) (main_arg12 : FVec F S768 .f32) (main_arg13 : FVec F S768 .f32) (main_arg14 : FVec F S768 .f32) (main_arg15 : FVec F S768 .f32) (main_arg16 : FVec F S768 .f32) (main_arg17 : FVec F S768 .f32) (main_arg18 : FVec F S768 .f32) (main_arg19 : FVec F S768 .f32) (main_arg20 : FVec F S768 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S768x784 .f32 := Host.absf main_arg1
  let main_cst_0 : FVec F S_ .f32 := constant S_ .f32 0x7F800000#32
  let main_v5 : FVec F S768x784 .f32 := broadcastInDim S768x784 ![] bcast_S_S768x784 main_cst_0
  let main_v6 : IVec S768x784 1 := cmpf .olt main_v4 main_v5
  let main_c_1 : IVec S_ 1 := constantI S_ 1 1#1
  let main_v7 : IVec S_ 1 := (fun x v => Host.reduce IntOp.andi x v reducesTo_S768x784_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S16384x784 : Shape := ⟨2, ![16384, 784]⟩
abbrev S768x784 : Shape := ⟨2, ![768, 784]⟩
abbrev S768 : Shape := ⟨1, ![768]⟩
abbrev S768x768 : Shape := ⟨2, ![768, 768]⟩
abbrev S10x768 : Shape := ⟨2, ![10, 768]⟩
abbrev S10 : Shape := ⟨1, ![10]⟩
abbrev S1x768 : Shape := ⟨2, ![1, 768]⟩
abbrev S1x10 : Shape := ⟨2, ![1, 10]⟩
abbrev S16384x10 : Shape := ⟨2, ![16384, 10]⟩
abbrev S512x784 : Shape := ⟨2, ![512, 784]⟩
abbrev S512x10 : Shape := ⟨2, ![512, 10]⟩
abbrev S784x768 : Shape := ⟨2, ![784, 768]⟩
abbrev S512x768 : Shape := ⟨2, ![512, 768]⟩
abbrev S768x10 : Shape := ⟨2, ![768, 10]⟩
abbrev S512 : Shape := ⟨1, ![512]⟩
abbrev S512x1 : Shape := ⟨2, ![512, 1]⟩

abbrev nBuf : Space → Nat
  | .hbm => 38
  | .vmem => 24
  | .smem => 0
  | _ => 0

abbrev bufTy : (tb : Table) → Fin (tcTables nBuf tb) → BufTy
  | .hbm, ⟨0, _⟩ => ⟨S16384x784, .f32⟩
  | .hbm, ⟨1, _⟩ => ⟨S768x784, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S10x768, .f32⟩
  | .hbm, ⟨8, _⟩ => ⟨S10, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768, .f32⟩
  | .hbm, ⟨13, _⟩ => ⟨S768, .f32⟩
  | .hbm, ⟨14, _⟩ => ⟨S768, .f32⟩
  | .hbm, ⟨15, _⟩ => ⟨S768, .f32⟩
  | .hbm, ⟨16, _⟩ => ⟨S768, .f32⟩
  | .hbm, ⟨17, _⟩ => ⟨S768, .f32⟩
  | .hbm, ⟨18, _⟩ => ⟨S768, .f32⟩
  | .hbm, ⟨19, _⟩ => ⟨S768, .f32⟩
  | .hbm, ⟨20, _⟩ => ⟨S768, .f32⟩
  | .hbm, ⟨21, _⟩ => ⟨S1x768, .f32⟩
  | .hbm, ⟨22, _⟩ => ⟨S1x768, .f32⟩
  | .hbm, ⟨23, _⟩ => ⟨S1x768, .f32⟩
  | .hbm, ⟨24, _⟩ => ⟨S1x10, .f32⟩
  | .hbm, ⟨25, _⟩ => ⟨S1x768, .f32⟩
  | .hbm, ⟨26, _⟩ => ⟨S1x768, .f32⟩
  | .hbm, ⟨27, _⟩ => ⟨S1x768, .f32⟩
  | .hbm, ⟨28, _⟩ => ⟨S1x768, .f32⟩
  | .hbm, ⟨29, _⟩ => ⟨S1x768, .f32⟩
  | .hbm, ⟨30, _⟩ => ⟨S1x768, .f32⟩
  | .hbm, ⟨31, _⟩ => ⟨S1x768, .f32⟩
  | .hbm, ⟨32, _⟩ => ⟨S1x768, .f32⟩
  | .hbm, ⟨33, _⟩ => ⟨S1x768, .f32⟩
  | .hbm, ⟨34, _⟩ => ⟨S1x768, .f32⟩
  | .hbm, ⟨35, _⟩ => ⟨S1x768, .f32⟩
  | .hbm, ⟨36, _⟩ => ⟨S1x768, .f32⟩
  | .hbm, ⟨37, _⟩ => ⟨S16384x10, .f32⟩
  | .local _ .vmem, ⟨0, _⟩ => ⟨S512x784, .f32⟩
  | .local _ .vmem, ⟨1, _⟩ => ⟨S512x784, .f32⟩
  | .local _ .vmem, ⟨2, _⟩ => ⟨S768x784, .f32⟩
  | .local _ .vmem, ⟨3, _⟩ => ⟨S1x768, .f32⟩
  | .local _ .vmem, ⟨4, _⟩ => ⟨S768x768, .f32⟩
  | .local _ .vmem, ⟨5, _⟩ => ⟨S1x768, .f32⟩
  | .local _ .vmem, ⟨6, _⟩ => ⟨S768x768, .f32⟩
  | .local _ .vmem, ⟨7, _⟩ => ⟨S1x768, .f32⟩
  | .local _ .vmem, ⟨8, _⟩ => ⟨S10x768, .f32⟩
  | .local _ .vmem, ⟨9, _⟩ => ⟨S1x10, .f32⟩
  | .local _ .vmem, ⟨10, _⟩ => ⟨S1x768, .f32⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S1x768, .f32⟩
  | .local _ .vmem, ⟨15, _⟩ => ⟨S1x768, .f32⟩
  | .local _ .vmem, ⟨16, _⟩ => ⟨S1x768, .f32⟩
  | .local _ .vmem, ⟨17, _⟩ => ⟨S1x768, .f32⟩
  | .local _ .vmem, ⟨18, _⟩ => ⟨S1x768, .f32⟩
  | .local _ .vmem, ⟨19, _⟩ => ⟨S1x768, .f32⟩
  | .local _ .vmem, ⟨20, _⟩ => ⟨S1x768, .f32⟩
  | .local _ .vmem, ⟨21, _⟩ => ⟨S1x768, .f32⟩
  | .local _ .vmem, ⟨22, _⟩ => ⟨S512x10, .f32⟩
  | .local _ .vmem, ⟨23, _⟩ => ⟨S512x10, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S512x10 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  shapeCasts_S768_S1x768 : S768.ShapeCasts S1x768
  shapeCasts_S10_S1x10 : S10.ShapeCasts S1x10
  inb_S512x784_S512x784_0_0 : ∀ a, (![0, 0] : Fin 2 → Nat) a + S512x784.size a ≤ S512x784.size a
  h_S512x784 : 0 < S512x784.numel
  bitsLt_bf16_f32 : FTy.bits .bf16 < FTy.bits .f32
  inb_S768x784_S768x784_0_0 : ∀ a, (![0, 0] : Fin 2 → Nat) a + S768x784.size a ≤ S768x784.size a
  h_S768x784 : 0 < S768x784.numel
  transposes_S768x784_p1_0_S784x768 : S768x784.Transposes [1, 0] S784x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S768x768_S768x768_0_0 : ∀ a, (![0, 0] : Fin 2 → Nat) a + S768x768.size a ≤ S768x768.size a
  h_S768x768 : 0 < S768x768.numel
  transposes_S768x768_p1_0_S768x768 : S768x768.Transposes [1, 0] S768x768
  inb_S10x768_S10x768_0_0 : ∀ a, (![0, 0] : Fin 2 → Nat) a + S10x768.size a ≤ S10x768.size a
  h_S10x768 : 0 < S10x768.numel
  transposes_S10x768_p1_0_S768x10 : S10x768.Transposes [1, 0] S768x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  dot_S512x784_S784x768_S512x768_1_0_0_1_n_n_wf : DotDims.WF S512x784 S784x768 S512x768 [1] [0] [0] [1] [] []
  dot_S512x768_S768x768_S512x768_1_0_0_1_n_n_wf : DotDims.WF S512x768 S768x768 S512x768 [1] [0] [0] [1] [] []
  dot_S512x768_S768x10_S512x10_1_0_0_1_n_n_wf : DotDims.WF S512x768 S768x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S16384x784.size a
  hwx0_0 : ∀ i : grid0.Coords, EltTy.bits .f32 = 32 ∨ (Rect.block (s := S16384x784) S512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x784.size a ≤ S768x784.size a
  hwx0_1 : ∀ i : grid0.Coords, EltTy.bits .f32 = 32 ∨ (Rect.block (s := S768x784) S768x784.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .f32 = 32 ∨ (Rect.block (s := S768x768) S768x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x768.size a ≤ S10x768.size a
  hwx0_7 : ∀ i : grid0.Coords, EltTy.bits .f32 = 32 ∨ (Rect.block (s := S10x768) S10x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x768.size a ≤ S1x768.size a
  hwx0_9 : ∀ i : grid0.Coords, EltTy.bits .f32 = 32 ∨ (Rect.block (s := S1x768) S1x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x768.size a ≤ S1x768.size a
  hwx0_10 : ∀ i : grid0.Coords, EltTy.bits .f32 = 32 ∨ (Rect.block (s := S1x768) S1x768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x768.size a ≤ S1x768.size a
  hwx0_11 : ∀ i : grid0.Coords, EltTy.bits .f32 = 32 ∨ (Rect.block (s := S1x768) S1x768.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x768.size a ≤ S1x768.size a
  hwx0_12 : ∀ i : grid0.Coords, EltTy.bits .f32 = 32 ∨ (Rect.block (s := S1x768) S1x768.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x768.size a ≤ S1x768.size a
  hwx0_13 : ∀ i : grid0.Coords, EltTy.bits .f32 = 32 ∨ (Rect.block (s := S1x768) S1x768.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x768.size a ≤ S1x768.size a
  hwx0_14 : ∀ i : grid0.Coords, EltTy.bits .f32 = 32 ∨ (Rect.block (s := S1x768) S1x768.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x768.size a ≤ S1x768.size a
  hwx0_15 : ∀ i : grid0.Coords, EltTy.bits .f32 = 32 ∨ (Rect.block (s := S1x768) S1x768.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x768.size a ≤ S1x768.size a
  hwx0_16 : ∀ i : grid0.Coords, EltTy.bits .f32 = 32 ∨ (Rect.block (s := S1x768) S1x768.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x768.size a ≤ S1x768.size a
  hwx0_17 : ∀ i : grid0.Coords, EltTy.bits .f32 = 32 ∨ (Rect.block (s := S1x768) S1x768.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x768.size a ≤ S1x768.size a
  hwx0_18 : ∀ i : grid0.Coords, EltTy.bits .f32 = 32 ∨ (Rect.block (s := S1x768) S1x768.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x768.size a ≤ S1x768.size a
  hwx0_19 : ∀ i : grid0.Coords, EltTy.bits .f32 = 32 ∨ (Rect.block (s := S1x768) S1x768.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x768.size a ≤ S1x768.size a
  hwx0_20 : ∀ i : grid0.Coords, EltTy.bits .f32 = 32 ∨ (Rect.block (s := S1x768) S1x768.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S512x10.size a ≤ S16384x10.size a
  hwx0_21 : ∀ i : grid0.Coords, EltTy.bits .f32 = 32 ∨ (Rect.block (s := S16384x10) S512x10.size (cc0_transform_21 i) (hinb0_21 i)).WholeWords (EltTy.packing .f32)

variable [Facts₀]

def dot_S512x784_S784x768_S512x768_1_0_0_1_n_n : DotDims S512x784 S784x768 S512x768 where
  lhsContracting := [1]
  rhsContracting := [0]
  lhsNonContracting := [0]
  rhsNonContracting := [1]
  lhsBatch := []
  rhsBatch := []
  wf := dot_S512x784_S784x768_S512x768_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x768_S768x10_S512x10_1_0_0_1_n_n : DotDims S512x768 S768x10 S512x10 where
  lhsContracting := [1]
  rhsContracting := [0]
  lhsNonContracting := [0]
  rhsNonContracting := [1]
  lhsBatch := []
  rhsBatch := []
  wf := dot_S512x768_S768x10_S512x10_1_0_0_1_n_n_wf

abbrev win0_0 : Pipeline.Window sig grid0 :=
  Pipeline.Window.ofSpec (Memref.whole main_arg0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S10x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x768.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S1x768.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v10) S1x768.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v11) S1x768.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v12) S1x768.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v13) S1x768.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v14) S1x768.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v15) S1x768.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v16) S512x10.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S16384x784 : Shape := ⟨2, ![16384, 784]⟩
abbrev S768x784 : Shape := ⟨2, ![768, 784]⟩
abbrev S768 : Shape := ⟨1, ![768]⟩
abbrev S768x768 : Shape := ⟨2, ![768, 768]⟩
abbrev S10x768 : Shape := ⟨2, ![10, 768]⟩
abbrev S10 : Shape := ⟨1, ![10]⟩
abbrev S_ : Shape := ⟨0, ![]⟩
abbrev S784x768 : Shape := ⟨2, ![784, 768]⟩
abbrev S16384x768 : Shape := ⟨2, ![16384, 768]⟩
abbrev S1x768 : Shape := ⟨2, ![1, 768]⟩
abbrev S768x10 : Shape := ⟨2, ![768, 10]⟩
abbrev S16384x10 : Shape := ⟨2, ![16384, 10]⟩
abbrev S1x10 : Shape := ⟨2, ![1, 10]⟩
abbrev S16384 : Shape := ⟨1, ![16384]⟩
abbrev S16384x1 : Shape := ⟨2, ![16384, 1]⟩

abbrev nBuf : Space → Nat
  | .hbm => 177
  | .vmem => 0
  | .smem => 0
  | _ => 0

abbrev hbmTy0_0 (i : Nat) : BufTy := match i % 128 with
  | 0 => ⟨S16384x784, .f32⟩
  | 1 => ⟨S768x784, .f32⟩
  | 2 => ⟨S768, .f32⟩
  | 3 => ⟨S768x768, .f32⟩
  | 4 => ⟨S768, .f32⟩
  | 5 => ⟨S768x768, .f32⟩
  | 6 => ⟨S768, .f32⟩
  | 7 => ⟨S10x768, .f32⟩
  | 8 => ⟨S10, .f32⟩
  | 9 => ⟨S768, .f32⟩
  | 10 => ⟨S768, .f32⟩
  | 11 => ⟨S768, .f32⟩
  | 12 => ⟨S768, .f32⟩
  | 13 => ⟨S768, .f32⟩
  | 14 => ⟨S768, .f32⟩
  | 15 => ⟨S768, .f32⟩
  | 16 => ⟨S768, .f32⟩
  | 17 => ⟨S768, .f32⟩
  | 18 => ⟨S768, .f32⟩
  | 19 => ⟨S768, .f32⟩
  | 20 => ⟨S768, .f32⟩
  | 21 => ⟨S_, .f32⟩
  | 22 => ⟨S768x784, .f32⟩
  | 23 => ⟨S768x784, .i1⟩
  | 24 => ⟨S_, .f32⟩
  | 25 => ⟨S_, .f32⟩
  | 26 => ⟨S768x784, .f32⟩
  | 27 => ⟨S768x784, .f32⟩
  | 28 => ⟨S768x784, .f32⟩
  | 29 => ⟨S768x784, .f32⟩
  | 30 => ⟨S768x784, .f32⟩
  | 31 => ⟨S768x784, .f32⟩
  | 32 => ⟨S784x768, .f32⟩
  | 33 => ⟨S16384x768, .f32⟩
  | 34 => ⟨S1x768, .f32⟩
  | 35 => ⟨S16384x768, .f32⟩
  | 36 => ⟨S16384x768, .f32⟩
  | 37 => ⟨S1x768, .f32⟩
  | 38 => ⟨S16384x768, .f32⟩
  | 39 => ⟨S16384x768, .f32⟩
  | 40 => ⟨S_, .f32⟩
  | 41 => ⟨S768, .f32⟩
  | 42 => ⟨S768, .f32⟩
  | 43 => ⟨S768, .f32⟩
  | 44 => ⟨S768, .f32⟩
  | 45 => ⟨S1x768, .f32⟩
  | 46 => ⟨S16384x768, .f32⟩
  | 47 => ⟨S16384x768, .f32⟩
  | 48 => ⟨S1x768, .f32⟩
  | 49 => ⟨S16384x768, .f32⟩
  | 50 => ⟨S16384x768, .f32⟩
  | 51 => ⟨S_, .f32⟩
  | 52 => ⟨S_, .f32⟩
  | 53 => ⟨S_, .f32⟩
  | 54 => ⟨S16384x768, .f32⟩
  | 55 => ⟨S16384x768, .f32⟩
  | 56 => ⟨S_, .f32⟩
  | 57 => ⟨S16384x768, .f32⟩
  | 58 => ⟨S16384x768, .f32⟩
  | 59 => ⟨S_, .f32⟩
  | 60 => ⟨S16384x768, .f32⟩
  | 61 => ⟨S16384x768, .i1⟩
  | 62 => ⟨S_, .f32⟩
  | 63 => ⟨S_, .f32⟩
  | 64 => ⟨S16384x768, .f32⟩
  | 65 => ⟨S16384x768, .f32⟩
  | 66 => ⟨S16384x768, .f32⟩
  | 67 => ⟨S16384x768, .f32⟩
  | 68 => ⟨S16384x768, .f32⟩
  | 69 => ⟨S16384x768, .f32⟩
  | 70 => ⟨S_, .f32⟩
  | 71 => ⟨S768x768, .f32⟩
  | 72 => ⟨S768x768, .i1⟩
  | 73 => ⟨S_, .f32⟩
  | 74 => ⟨S_, .f32⟩
  | 75 => ⟨S768x768, .f32⟩
  | 76 => ⟨S768x768, .f32⟩
  | 77 => ⟨S768x768, .f32⟩
  | 78 => ⟨S768x768, .f32⟩
  | 79 => ⟨S768x768, .f32⟩
  | 80 => ⟨S768x768, .f32⟩
  | 81 => ⟨S768x768, .f32⟩
  | 82 => ⟨S16384x768, .f32⟩
  | 83 => ⟨S1x768, .f32⟩
  | 84 => ⟨S16384x768, .f32⟩
  | 85 => ⟨S16384x768, .f32⟩
  | 86 => ⟨S1x768, .f32⟩
  | 87 => ⟨S16384x768, .f32⟩
  | 88 => ⟨S16384x768, .f32⟩
  | 89 => ⟨S_, .f32⟩
  | 90 => ⟨S768, .f32⟩
  | 91 => ⟨S768, .f32⟩
  | 92 => ⟨S768, .f32⟩
  | 93 => ⟨S768, .f32⟩
  | 94 => ⟨S1x768, .f32⟩
  | 95 => ⟨S16384x768, .f32⟩
  | 96 => ⟨S16384x768, .f32⟩
  | 97 => ⟨S1x768, .f32⟩
  | 98 => ⟨S16384x768, .f32⟩
  | 99 => ⟨S16384x768, .f32⟩
  | 100 => ⟨S_, .f32⟩
  | 101 => ⟨S_, .f32⟩
  | 102 => ⟨S_, .f32⟩
  | 103 => ⟨S16384x768, .f32⟩
  | 104 => ⟨S16384x768, .f32⟩
  | 105 => ⟨S_, .f32⟩
  | 106 => ⟨S16384x768, .f32⟩
  | 107 => ⟨S16384x768, .f32⟩
  | 108 => ⟨S_, .f32⟩
  | 109 => ⟨S16384x768, .f32⟩
  | 110 => ⟨S16384x768, .i1⟩
  | 111 => ⟨S_, .f32⟩
  | 112 => ⟨S_, .f32⟩
  | 113 => ⟨S16384x768, .f32⟩
  | 114 => ⟨S16384x768, .f32⟩
  | 115 => ⟨S16384x768, .f32⟩
  | 116 => ⟨S16384x768, .f32⟩
  | 117 => ⟨S16384x768, .f32⟩
  | 118 => ⟨S16384x768, .f32⟩
  | 119 => ⟨S_, .f32⟩
  | 120 => ⟨S768x768, .f32⟩
  | 121 => ⟨S768x768, .i1⟩
  | 122 => ⟨S_, .f32⟩
  | 123 => ⟨S_, .f32⟩
  | 124 => ⟨S768x768, .f32⟩
  | 125 => ⟨S768x768, .f32⟩
  | 126 => ⟨S768x768, .f32⟩
  | 127 => ⟨S768x768, .f32⟩
  | _ => ⟨S16384x784, .f32⟩

abbrev hbmTy0_1 (i : Nat) : BufTy := match i % 128 with
  | 0 => ⟨S768x768, .f32⟩
  | 1 => ⟨S768x768, .f32⟩
  | 2 => ⟨S768x768, .f32⟩
  | 3 => ⟨S16384x768, .f32⟩
  | 4 => ⟨S1x768, .f32⟩
  | 5 => ⟨S16384x768, .f32⟩
  | 6 => ⟨S16384x768, .f32⟩
  | 7 => ⟨S1x768, .f32⟩
  | 8 => ⟨S16384x768, .f32⟩
  | 9 => ⟨S16384x768, .f32⟩
  | 10 => ⟨S_, .f32⟩
  | 11 => ⟨S768, .f32⟩
  | 12 => ⟨S768, .f32⟩
  | 13 => ⟨S768, .f32⟩
  | 14 => ⟨S768, .f32⟩
  | 15 => ⟨S1x768, .f32⟩
  | 16 => ⟨S16384x768, .f32⟩
  | 17 => ⟨S16384x768, .f32⟩
  | 18 => ⟨S1x768, .f32⟩
  | 19 => ⟨S16384x768, .f32⟩
  | 20 => ⟨S16384x768, .f32⟩
  | 21 => ⟨S_, .f32⟩
  | 22 => ⟨S_, .f32⟩
  | 23 => ⟨S_, .f32⟩
  | 24 => ⟨S16384x768, .f32⟩
  | 25 => ⟨S16384x768, .f32⟩
  | 26 => ⟨S_, .f32⟩
  | 27 => ⟨S16384x768, .f32⟩
  | 28 => ⟨S16384x768, .f32⟩
  | 29 => ⟨S768x10, .f32⟩
  | 30 => ⟨S16384x10, .f32⟩
  | 31 => ⟨S1x10, .f32⟩
  | 32 => ⟨S16384x10, .f32⟩
  | 33 => ⟨S16384x10, .f32⟩
  | 34 => ⟨S_, .f32⟩
  | 35 => ⟨S16384, .f32⟩
  | 36 => ⟨S_, .f32⟩
  | 37 => ⟨S16384, .f32⟩
  | 38 => ⟨S16384, .f32⟩
  | 39 => ⟨S16384x1, .f32⟩
  | 40 => ⟨S16384x10, .f32⟩
  | 41 => ⟨S16384x10, .f32⟩
  | 42 => ⟨S16384x10, .f32⟩
  | 43 => ⟨S_, .f32⟩
  | 44 => ⟨S16384, .f32⟩
  | 45 => ⟨S16384x1, .f32⟩
  | 46 => ⟨S16384x1, .f32⟩
  | 47 => ⟨S16384x10, .f32⟩
  | 48 => ⟨S16384x10, .f32⟩
  | _ => ⟨S16384x784, .f32⟩

abbrev hbmTy (i : Nat) : BufTy := match i / 128 with
  | 0 => hbmTy0_0 i
  | 1 => hbmTy0_1 i
  | _ => ⟨S16384x784, .f32⟩

abbrev bufTy : (tb : Table) → Fin (tcTables nBuf tb) → BufTy
  | .hbm, ⟨i, _⟩ => hbmTy i
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_cst_4 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩
abbrev main_cst_6 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_8 : Ref sig .tc := ⟨.hbm, 70, rfl⟩
abbrev main_v31 : Ref sig .tc := ⟨.hbm, 71, rfl⟩
abbrev main_v32 : Ref sig .tc := ⟨.hbm, 72, rfl⟩
abbrev main_cst_9 : Ref sig .tc := ⟨.hbm, 73, rfl⟩
abbrev main_cst_10 : Ref sig .tc := ⟨.hbm, 74, rfl⟩
abbrev main_call3_v0 : Ref sig .tc := ⟨.hbm, 75, rfl⟩
abbrev main_call3_v1 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_11 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_12 : Ref sig .tc := ⟨.hbm, 100, rfl⟩
abbrev main_cst_13 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_v55 : Ref sig .tc := ⟨.hbm, 107, rfl⟩
abbrev main_cst_14 : Ref sig .tc := ⟨.hbm, 108, rfl⟩
abbrev main_v56 : Ref sig .tc := ⟨.hbm, 109, rfl⟩
abbrev main_v57 : Ref sig .tc := ⟨.hbm, 110, rfl⟩
abbrev main_cst_15 : Ref sig .tc := ⟨.hbm, 111, rfl⟩
abbrev main_cst_16 : Ref sig .tc := ⟨.hbm, 112, rfl⟩
abbrev main_call5_v0 : Ref sig .tc := ⟨.hbm, 113, rfl⟩
abbrev main_call5_v1 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_cst_17 : Ref sig .tc := ⟨.hbm, 119, rfl⟩
abbrev main_v62 : Ref sig .tc := ⟨.hbm, 120, rfl⟩
abbrev main_v63 : Ref sig .tc := ⟨.hbm, 121, rfl⟩
abbrev main_cst_18 : Ref sig .tc := ⟨.hbm, 122, rfl⟩
abbrev main_cst_19 : Ref sig .tc := ⟨.hbm, 123, rfl⟩
abbrev main_call6_v0 : Ref sig .tc := ⟨.hbm, 124, rfl⟩
abbrev main_call6_v1 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_cst_20 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_cst_21 : Ref sig .tc := ⟨.hbm, 149, rfl⟩
abbrev main_cst_22 : Ref sig .tc := ⟨.hbm, 150, rfl⟩
abbrev main_call7_v0 : Ref sig .tc := ⟨.hbm, 151, rfl⟩
abbrev main_call7_v1 : Ref sig .tc := ⟨.hbm, 152, rfl⟩
abbrev main_call7_v2 : Ref sig .tc := ⟨.hbm, 153, rfl⟩
abbrev main_call7_v3 : Ref sig .tc := ⟨.hbm, 154, rfl⟩
abbrev main_call7_v4 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_call8_cst : Ref sig .tc := ⟨.hbm, 162, rfl⟩
abbrev main_call8_v0 : Ref sig .tc := ⟨.hbm, 163, rfl⟩
abbrev main_call8_cst_0 : Ref sig .tc := ⟨.hbm, 164, rfl⟩
abbrev main_call8_v1 : Ref sig .tc := ⟨.hbm, 165, rfl⟩
abbrev main_call8_v2 : Ref sig .tc := ⟨.hbm, 166, rfl⟩
abbrev main_call8_v3 : Ref sig .tc := ⟨.hbm, 167, rfl⟩
abbrev main_call8_v4 : Ref sig .tc := ⟨.hbm, 168, rfl⟩
abbrev main_call8_v5 : Ref sig .tc := ⟨.hbm, 169, rfl⟩
abbrev main_call8_v6 : Ref sig .tc := ⟨.hbm, 170, rfl⟩
abbrev main_call8_cst_1 : Ref sig .tc := ⟨.hbm, 171, rfl⟩
abbrev main_call8_v7 : Ref sig .tc := ⟨.hbm, 172, rfl⟩
abbrev main_call8_v8 : Ref sig .tc := ⟨.hbm, 173, rfl⟩
abbrev main_call8_v9 : Ref sig .tc := ⟨.hbm, 174, rfl⟩
abbrev main_call8_v10 : Ref sig .tc := ⟨.hbm, 175, rfl⟩
abbrev main_v92 : Ref sig .tc := ⟨.hbm, 176, rfl⟩

abbrev nD : Nat := 1
abbrev τ : Topo := Topo.v7x

variable {F : FTy → Type} [FloatOps F]

class Facts₀ : Prop where
  bcast_S_S768x784 : S_.BroadcastsInDim S768x784 (![] : Fin 0 → Fin S768x784.rank)
  transposes_S768x784_S784x768_1_0 : S768x784.Transposes [1, 0] S784x768
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  bcast_S_S768 : S_.BroadcastsInDim S768 (![] : Fin 0 → Fin S768.rank)
  bcast_S_S16384x768 : S_.BroadcastsInDim S16384x768 (![] : Fin 0 → Fin S16384x768.rank)
  bcast_S_S768x768 : S_.BroadcastsInDim S768x768 (![] : Fin 0 → Fin S768x768.rank)
  transposes_S768x768_S768x768_1_0 : S768x768.Transposes [1, 0] S768x768
  transposes_S10x768_S768x10_1_0 : S10x768.Transposes [1, 0] S768x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  reducesTo_S16384x10_S16384_d1 : S16384x10.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x10_0_1 : S16384x1.BroadcastsInDim S16384x10 (![0, 1] : Fin 2 → Fin S16384x10.rank)
  dot_S16384x784_S784x768_S16384x768_1_0_0_1_n_n_wf : DotDims.WF S16384x784 S784x768 S16384x768 [1] [0] [0] [1] [] []
  dot_S16384x768_S768x768_S16384x768_1_0_0_1_n_n_wf : DotDims.WF S16384x768 S768x768 S16384x768 [1] [0] [0] [1] [] []
  dot_S16384x768_S768x10_S16384x10_1_0_0_1_n_n_wf : DotDims.WF S16384x768 S768x10 S16384x10 [1] [0] [0] [1] [] []

variable [Facts₀]

def dot_S16384x784_S784x768_S16384x768_1_0_0_1_n_n : DotDims S16384x784 S784x768 S16384x768 where
  lhsContracting := [1]
  rhsContracting := [0]
  lhsNonContracting := [0]
  rhsNonContracting := [1]
  lhsBatch := []
  rhsBatch := []
  wf := dot_S16384x784_S784x768_S16384x768_1_0_0_1_n_n_wf
def dot_S16384x768_S768x768_S16384x768_1_0_0_1_n_n : DotDims S16384x768 S768x768 S16384x768 where
  lhsContracting := [1]
  rhsContracting := [0]
  lhsNonContracting := [0]
  rhsNonContracting := [1]
  lhsBatch := []
  rhsBatch := []
  wf := dot_S16384x768_S768x768_S16384x768_1_0_0_1_n_n_wf
def dot_S16384x768_S768x10_S16384x10_1_0_0_1_n_n : DotDims S16384x768 S768x10 S16384x10 where
  lhsContracting := [1]
  rhsContracting := [0]
  lhsNonContracting := [0]
  rhsNonContracting := [1]
  lhsBatch := []
  rhsBatch := []
  wf := dot_S16384x768_S768x10_S16384x10_1_0_0_1_n_n_wf

class Facts : Prop extends Facts₀ where

variable [Facts]
-- ==== Proof.BinNet.lean ====
/-
  The network both programs compute, written for ONE input row over the extended reals.

  A hidden layer takes a row `inp` of k entries to n entries: the product of `inp` with the SIGN matrix of its
  weights (sign t = +1 for t ≥ 0, else −1) plus a bias, then batch normalisation with fixed statistics,
  (y − μ) · (γ · (σ² + ε)^(−1/2)) + β, then the clamp to [−1, 1]. The first layer reads the input row as it is;
  the second and third read the SIGNS of the layer before. The last layer is a plain product with W4 plus b4,
  followed by the logarithm of the softmax: z_c − M − log Σ_c' exp (z_c' − M), M the row's maximum.

  Two facts about these scalars are all the algebra the certificate needs. A sign is a real number (+1 or −1), and
  so is a clamped value (it lies between −1 and 1). And for a REAL t the sum t + (sign t − t) is sign t: on the
  extended reals this cancellation holds for finite t only, which is where the finiteness of the inputs is used.
-/
import Idealize.ShloMosaic.PureOps.Ideal
import Idealize.ShloMosaic.PureOps.IdealRules
import Idealize.ShloMosaic.Lib.ValueIdx

noncomputable section

open scoped BigOperators

namespace Cert.BinNet

open Idealize.ShloMosaic Idealize.ShloMosaic.ValueIdx

/-! ## The scalars -/

/-- The words of 0, 1, −1 and of the batch-norm ε, as the extended reals they denote. -/
abbrev zeroW : EReal := Ideal.ofBits .f32 0x00000000#32
abbrev oneW : EReal := Ideal.ofBits .f32 0x3F800000#32
abbrev negOneW : EReal := Ideal.ofBits .f32 0xBF800000#32
abbrev epsW : EReal := Ideal.ofBits .f32 0x3727C5AC#32

/-- The sign used to binarise: +1 where t ≥ 0, else −1. -/
def bin (t : EReal) : EReal := Scalar.select (Ideal.cmp .oge t zeroW) oneW negOneW

/-- The clamp to [−1, 1]. -/
def htanh (y : EReal) : EReal := min oneW (max negOneW y)

/-- Batch normalisation with fixed statistics. -/
def bnorm (y g be mu var : EReal) : EReal := (y - mu) * (g * Ideal.rsqrt (var + epsW)) + be

/-- A row times the transpose of a weight matrix, plus a bias. -/
def dense {k n : ℕ} (inp : Fin k → EReal) (W : Fin n → Fin k → EReal) (b : Fin n → EReal) (j : Fin n) : EReal :=
  (∑ l : Fin k, inp l * W j l) + b j

/-- The maximum of a row, folded from −∞. -/
def rowMax {n : ℕ} (z : Fin n → EReal) : EReal := (Finset.univ : Finset (Fin n)).fold max ⊥ z

/-- The logarithm of the softmax of a row. -/
def logSoftmax {n : ℕ} (z : Fin n → EReal) (c : Fin n) : EReal :=
  (z c - rowMax z) - Ideal.log (∑ c' : Fin n, Ideal.exp (z c' - rowMax z))

theorem oneW_eq : oneW = ((1 : ℝ) : EReal) := IdealRules.sign_bit.ideal_onePat .f32

theorem negOneW_eq : negOneW = ((-1 : ℝ) : EReal) := by
  have h : negOneW = -1 := IdealRules.sign_bit.ideal_negOnePat .f32
  rw [h]; rfl

/-- A sign is a real number. -/
theorem bin_real (t : EReal) : ∃ q : ℝ, bin t = (q : EReal) := by
  unfold bin Scalar.select
  split
  · exact ⟨1, oneW_eq⟩
  · exact ⟨-1, negOneW_eq⟩

/-- For a real t, t + (sign t − t) is sign t. -/
theorem bin_ste {t : EReal} (ht : ∃ r : ℝ, t = (r : EReal)) : t + (bin t - t) = bin t := by
  obtain ⟨r, rfl⟩ := ht
  obtain ⟨q, hq⟩ := bin_real (r : EReal)
  rw [hq, ← EReal.coe_sub, ← EReal.coe_add]
  exact congrArg _ (by ring)

/-- A clamped value is a real number. -/
theorem htanh_real (y : EReal) : ∃ r : ℝ, htanh y = (r : EReal) := by
  have hle : htanh y ≤ ((1 : ℝ) : EReal) := by unfold htanh; rw [← oneW_eq]; exact min_le_left _ _
  have hge : ((-1 : ℝ) : EReal) ≤ htanh y := by
    unfold htanh; rw [← negOneW_eq]
    refine le_min ?_ (le_max_left _ _)
    rw [oneW_eq, negOneW_eq]; exact EReal.coe_le_coe_iff.mpr (by norm_num)
  have hne_top : htanh y ≠ ⊤ := ne_top_of_le_ne_top (EReal.coe_ne_top _) hle
  have hne_bot : htanh y ≠ ⊥ := ne_bot_of_le_ne_bot (EReal.coe_ne_bot _) hge
  exact ⟨(htanh y).toReal, (EReal.coe_toReal hne_top hne_bot).symm⟩

/-! ## The layers -/

/-- The parameters of one hidden layer from k entries to n: weights, bias, and the batch norm's γ, β, μ, σ². -/
structure Layer (k n : ℕ) where
  W : Fin n → Fin k → EReal
  b : Fin n → EReal
  g : Fin n → EReal
  be : Fin n → EReal
  mu : Fin n → EReal
  var : Fin n → EReal

/-- A hidden layer before its clamp: product with the sign matrix, bias, batch norm. -/
def Layer.pre {k n : ℕ} (L : Layer k n) (inp : Fin k → EReal) (j : Fin n) : EReal :=
  bnorm (dense inp (fun j l => bin (L.W j l)) L.b j) (L.g j) (L.be j) (L.mu j) (L.var j)

/-- A hidden layer: its pre-activation clamped to [−1, 1]. -/
def Layer.act {k n : ℕ} (L : Layer k n) (inp : Fin k → EReal) (j : Fin n) : EReal := htanh (L.pre inp j)

theorem Layer.act_real {k n : ℕ} (L : Layer k n) (inp : Fin k → EReal) (j : Fin n) :
    ∃ r : ℝ, L.act inp j = (r : EReal) := htanh_real _

/-- The network on one input row. -/
def net (L1 : Layer 784 768) (L2 L3 : Layer 768 768) (W4 : Fin 10 → Fin 768 → EReal) (b4 : Fin 10 → EReal)
    (x : Fin 784 → EReal) : Fin 10 → EReal :=
  logSoftmax (dense (L3.act fun l => bin (L2.act (fun l => bin (L1.act x l)) l)) W4 b4)

/-! ## The network over the argument arrays -/

/-- Every entry of an array is a real number (neither infinity). -/
def AllReal {s : Shape} (w : FVec Ideal s .f32) : Prop := ∀ i : s.Idx, ∃ r : ℝ, w i = (r : EReal)

/-- A layer's parameters read from a weight matrix [n, k] and five vectors [n]. -/
def layerOf {k n : ℕ} (W : FVec Ideal ⟨2, ![n, k]⟩ .f32) (b g be mu var : FVec Ideal ⟨1, ![n]⟩ .f32) : Layer k n where
  W := fun j l => W (ix2 j l)
  b := fun j => b (ix1 j)
  g := fun j => g (ix1 j)
  be := fun j => be (ix1 j)
  mu := fun j => mu (ix1 j)
  var := fun j => var (ix1 j)

/-- Every output entry (r, c) is the network on row r of the input, at class c; the arguments in the programs' order. -/
def G (x : FVec Ideal ⟨2, ![16384, 784]⟩ .f32)
    (W1 : FVec Ideal ⟨2, ![768, 784]⟩ .f32) (b1 : FVec Ideal ⟨1, ![768]⟩ .f32)
    (W2 : FVec Ideal ⟨2, ![768, 768]⟩ .f32) (b2 : FVec Ideal ⟨1, ![768]⟩ .f32)
    (W3 : FVec Ideal ⟨2, ![768, 768]⟩ .f32) (b3 : FVec Ideal ⟨1, ![768]⟩ .f32)
    (W4 : FVec Ideal ⟨2, ![10, 768]⟩ .f32) (b4 : FVec Ideal ⟨1, ![10]⟩ .f32)
    (g1 be1 m1 v1 g2 be2 m2 v2 g3 be3 m3 v3 : FVec Ideal ⟨1, ![768]⟩ .f32) :
    FVec Ideal ⟨2, ![16384, 10]⟩ .f32 :=
  fun i => net (layerOf W1 b1 g1 be1 m1 v1) (layerOf W2 b2 g2 be2 m2 v2) (layerOf W3 b3 g3 be3 m3 v3)
    (fun c l => W4 (ix2 c l)) (fun c => b4 (ix1 c)) (fun k => x (ix2 (i 0) k)) (i 1)

end Cert.BinNet

end
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.KernelRow.lean ====
/-
  What the kernel body stores, read at one entry of its output block.

  The body's arithmetic is four pure terms over the blocks it loads: the first hidden layer; the second up to the
  lower half of its clamp; the upper half of that clamp and the third layer up to its batch norm; the third clamp,
  the last linear layer and the log-softmax. Each is read here at an entry (p, ·) of its result: a product into a zero
  accumulator is the sum over the contracted index of row p of the left operand against a column of the right; a
  transposed matrix swaps its coordinates; a row block [1, n] broadcast over the rows reads its one row; the pointwise
  operations read entry by entry; a maximum or a sum along the classes, kept as a column and broadcast back, reads
  the maximum or the sum of row p. Put together, entry (p, q) of the stored block is the network (Proof/BinNet.lean)
  on row p of the input block, at class q, with the parameters read from the weight and row blocks.
-/
import proofs.«177683_j45140106281104_1_alg».proof.Proof.Gen.KernelIdeal.Frame
import proofs.«177683_j45140106281104_1_alg».proof.Proof.BinNet
import proofs.«177683_j45140106281104_1_alg».proof.Proof.LibKeepdims
import Idealize.ShloMosaic.Lib.ValueLayout
import Idealize.ShloMosaic.Lib.Pipeline.Value
import Idealize.ShloMosaic.PureOps.Ideal.Laws

noncomputable section

open scoped BigOperators

namespace Cert.KernelRow

open Cert.KernelIdeal Cert.KernelIdeal.Gen Idealize.ShloMosaic Idealize.ShloMosaic.ValueIdx Cert.BinNet

/-! ## A product of two matrices into a zero accumulator -/

/-- For a product [a, K] × [K, b] that contracts the left operand's second axis with the right operand's first, the
    entry (p, j) is the sum over k of the left operand at (p, k) times the right at (k, j): the contraction index is
    its one coordinate, the left operand's index at (p, j) and k is (p, k), the right operand's is (k, j). The four
    hypotheses say which operand axis carries which coordinate. -/
theorem prod_apply {a K b : ℕ} {φ₁ φ₂ : FTy} (D : DotDims ⟨2, ![a, K]⟩ ⟨2, ![K, b]⟩ ⟨2, ![a, b]⟩)
    (hr : D.contr.rank = 1) (hs : D.contr.size ⟨0, by omega⟩ = K)
    (hl0 : ∀ (i : (⟨2, ![a, b]⟩ : Shape).Idx) (q : D.contr.Idx), (D.lhsIdx i q 0).val = (i 0).val)
    (hl1 : ∀ (i : (⟨2, ![a, b]⟩ : Shape).Idx) (q : D.contr.Idx), (D.lhsIdx i q 1).val = (q ⟨0, by omega⟩).val)
    (hr0 : ∀ (i : (⟨2, ![a, b]⟩ : Shape).Idx) (q : D.contr.Idx), (D.rhsIdx i q 0).val = (q ⟨0, by omega⟩).val)
    (hr1 : ∀ (i : (⟨2, ![a, b]⟩ : Shape).Idx) (q : D.contr.Idx), (D.rhsIdx i q 1).val = (i 1).val)
    (A : FVec Ideal ⟨2, ![a, K]⟩ φ₁) (B : FVec Ideal ⟨2, ![K, b]⟩ φ₂) (p : Fin a) (j : Fin b) :
    FloatOps.matmul D none A B (constant ⟨2, ![a, b]⟩ .f32 0x00000000#32) (ix2 p j)
      = ∑ k : Fin K, A (ix2 p k) * B (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun c => Fin.ext (by
    match c with
    | ⟨0, _⟩ => exact hl0 _ _
    | ⟨1, _⟩ => exact (hl1 _ _).trans hk)
  have er : D.rhsIdx (ix2 p j) ((contrEquiv1 D K hr hs).symm k) = ix2 k j := funext fun c => Fin.ext (by
    match c with
    | ⟨0, _⟩ => exact (hr0 _ _).trans hk
    | ⟨1, _⟩ => exact hr1 _ _)
  rw [el, er]

/-! The first layer's product, [512, 784] × [784, 768]: which axis carries which coordinate. -/

theorem first_lhs_0 (i : S512x768.Idx) (q : dot_S512x784_S784x768_S512x768_1_0_0_1_n_n.contr.Idx) :
    (dot_S512x784_S784x768_S512x768_1_0_0_1_n_n.lhsIdx i q 0).val = (i 0).val := by
  unfold DotDims.lhsIdx
  rw [dif_neg (show ¬(0 : Fin S512x784.rank) ∈ dot_S512x784_S784x768_S512x768_1_0_0_1_n_n.lhsBatch by decide),
    dif_pos (show (0 : Fin S512x784.rank) ∈ dot_S512x784_S784x768_S512x768_1_0_0_1_n_n.lhsNonContracting by decide)]
  rfl
theorem first_lhs_1 (i : S512x768.Idx) (q : dot_S512x784_S784x768_S512x768_1_0_0_1_n_n.contr.Idx) :
    (dot_S512x784_S784x768_S512x768_1_0_0_1_n_n.lhsIdx i q 1).val = (q ⟨0, by decide⟩).val :=
  dot_S512x784_S784x768_S512x768_1_0_0_1_n_n.lhsIdx_val_of_single rfl i q
theorem first_rhs_0 (i : S512x768.Idx) (q : dot_S512x784_S784x768_S512x768_1_0_0_1_n_n.contr.Idx) :
    (dot_S512x784_S784x768_S512x768_1_0_0_1_n_n.rhsIdx i q 0).val = (q ⟨0, by decide⟩).val :=
  dot_S512x784_S784x768_S512x768_1_0_0_1_n_n.rhsIdx_val_of_single rfl i q
theorem first_rhs_1 (i : S512x768.Idx) (q : dot_S512x784_S784x768_S512x768_1_0_0_1_n_n.contr.Idx) :
    (dot_S512x784_S784x768_S512x768_1_0_0_1_n_n.rhsIdx i q 1).val = (i 1).val := by
  unfold DotDims.rhsIdx
  rw [dif_neg (show ¬(1 : Fin S784x768.rank) ∈ dot_S512x784_S784x768_S512x768_1_0_0_1_n_n.rhsBatch by decide),
    dif_pos (show (1 : Fin S784x768.rank) ∈ dot_S512x784_S784x768_S512x768_1_0_0_1_n_n.rhsNonContracting by decide)]
  rfl

/-- The first layer's product at (p, j). -/
theorem first_prod {φ₁ φ₂ : FTy} (A : FVec Ideal S512x784 φ₁) (B : FVec Ideal S784x768 φ₂) (p : Fin 512) (j : Fin 768) :
    matmul dot_S512x784_S784x768_S512x768_1_0_0_1_n_n none A B (constant S512x768 .f32 0x00000000#32) (ix2 p j)
      = ∑ k : Fin 784, A (ix2 p k) * B (ix2 k j) :=
  prod_apply dot_S512x784_S784x768_S512x768_1_0_0_1_n_n rfl rfl first_lhs_0 first_lhs_1 first_rhs_0 first_rhs_1 A B p j

/-! The second and third layers' product, [512, 768] × [768, 768]. -/

theorem hidden_lhs_0 (i : S512x768.Idx) (q : dot_S512x768_S768x768_S512x768_1_0_0_1_n_n.contr.Idx) :
    (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch by decide),
    dif_pos (show (0 : Fin S512x768.rank) ∈ dot_S512x768_S768x768_S512x768_1_0_0_1_n_n.lhsNonContracting by decide)]
  rfl
theorem hidden_lhs_1 (i : S512x768.Idx) (q : dot_S512x768_S768x768_S512x768_1_0_0_1_n_n.contr.Idx) :
    (dot_S512x768_S768x768_S512x768_1_0_0_1_n_n.lhsIdx i q 1).val = (q ⟨0, by decide⟩).val :=
  dot_S512x768_S768x768_S512x768_1_0_0_1_n_n.lhsIdx_val_of_single rfl i q
theorem hidden_rhs_0 (i : S512x768.Idx) (q : dot_S512x768_S768x768_S512x768_1_0_0_1_n_n.contr.Idx) :
    (dot_S512x768_S768x768_S512x768_1_0_0_1_n_n.rhsIdx i q 0).val = (q ⟨0, by decide⟩).val :=
  dot_S512x768_S768x768_S512x768_1_0_0_1_n_n.rhsIdx_val_of_single rfl i q
theorem hidden_rhs_1 (i : S512x768.Idx) (q : dot_S512x768_S768x768_S512x768_1_0_0_1_n_n.contr.Idx) :
    (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch by decide),
    dif_pos (show (1 : Fin S768x768.rank) ∈ dot_S512x768_S768x768_S512x768_1_0_0_1_n_n.rhsNonContracting by decide)]
  rfl

/-- A hidden layer's product at (p, j). -/
theorem hidden_prod {φ₁ φ₂ : FTy} (A : FVec Ideal S512x768 φ₁) (B : FVec Ideal S768x768 φ₂) (p : Fin 512) (j : Fin 768) :
    matmul dot_S512x768_S768x768_S512x768_1_0_0_1_n_n none A B (constant S512x768 .f32 0x00000000#32) (ix2 p j)
      = ∑ k : Fin 768, A (ix2 p k) * B (ix2 k j) :=
  prod_apply dot_S512x768_S768x768_S512x768_1_0_0_1_n_n rfl rfl hidden_lhs_0 hidden_lhs_1 hidden_rhs_0 hidden_rhs_1 A B p j

/-! The last layer's product, [512, 768] × [768, 10]. -/

theorem last_lhs_0 (i : S512x10.Idx) (q : dot_S512x768_S768x10_S512x10_1_0_0_1_n_n.contr.Idx) :
    (dot_S512x768_S768x10_S512x10_1_0_0_1_n_n.lhsIdx i q 0).val = (i 0).val := by
  unfold DotDims.lhsIdx
  rw [dif_neg (show ¬(0 : Fin S512x768.rank) ∈ dot_S512x768_S768x10_S512x10_1_0_0_1_n_n.lhsBatch by decide),
    dif_pos (show (0 : Fin S512x768.rank) ∈ dot_S512x768_S768x10_S512x10_1_0_0_1_n_n.lhsNonContracting by decide)]
  rfl
theorem last_lhs_1 (i : S512x10.Idx) (q : dot_S512x768_S768x10_S512x10_1_0_0_1_n_n.contr.Idx) :
    (dot_S512x768_S768x10_S512x10_1_0_0_1_n_n.lhsIdx i q 1).val = (q ⟨0, by decide⟩).val :=
  dot_S512x768_S768x10_S512x10_1_0_0_1_n_n.lhsIdx_val_of_single rfl i q
theorem last_rhs_0 (i : S512x10.Idx) (q : dot_S512x768_S768x10_S512x10_1_0_0_1_n_n.contr.Idx) :
    (dot_S512x768_S768x10_S512x10_1_0_0_1_n_n.rhsIdx i q 0).val = (q ⟨0, by decide⟩).val :=
  dot_S512x768_S768x10_S512x10_1_0_0_1_n_n.rhsIdx_val_of_single rfl i q
theorem last_rhs_1 (i : S512x10.Idx) (q : dot_S512x768_S768x10_S512x10_1_0_0_1_n_n.contr.Idx) :
    (dot_S512x768_S768x10_S512x10_1_0_0_1_n_n.rhsIdx i q 1).val = (i 1).val := by
  unfold DotDims.rhsIdx
  rw [dif_neg (show ¬(1 : Fin S768x10.rank) ∈ dot_S512x768_S768x10_S512x10_1_0_0_1_n_n.rhsBatch by decide),
    dif_pos (show (1 : Fin S768x10.rank) ∈ dot_S512x768_S768x10_S512x10_1_0_0_1_n_n.rhsNonContracting by decide)]
  rfl

/-- The last layer's product at (p, q). -/
theorem last_prod {φ₁ φ₂ : FTy} (A : FVec Ideal S512x768 φ₁) (B : FVec Ideal S768x10 φ₂) (p : Fin 512) (q : Fin 10) :
    matmul dot_S512x768_S768x10_S512x10_1_0_0_1_n_n none A B (constant S512x10 .f32 0x00000000#32) (ix2 p q)
      = ∑ k : Fin 768, A (ix2 p k) * B (ix2 k q) :=
  prod_apply dot_S512x768_S768x10_S512x10_1_0_0_1_n_n rfl rfl last_lhs_0 last_lhs_1 last_rhs_0 last_rhs_1 A B p q

/-! ## The transposed weight matrices -/

theorem first_transposed {φ : FTy} (x : FVec Ideal S768x784 φ) (k : Fin 784) (j : Fin 768) :
    transpose S784x768 [1, 0] x transposes_S768x784_p1_0_S784x768 (ix2 k j) = x (ix2 j k) :=
  transpose_ix2_apply x _ k j

theorem hidden_transposed {φ : FTy} (x : FVec Ideal S768x768 φ) (k : Fin 768) (j : Fin 768) :
    transpose S768x768 [1, 0] x transposes_S768x768_p1_0_S768x768 (ix2 k j) = x (ix2 j k) :=
  transpose_ix2_apply x _ k j

theorem last_transposed {φ : FTy} (x : FVec Ideal S10x768 φ) (k : Fin 768) (q : Fin 10) :
    transpose S768x10 [1, 0] x transposes_S10x768_p1_0_S768x10 (ix2 k q) = x (ix2 q k) :=
  transpose_ix2_apply x _ k q

/-! ## A row block broadcast over the rows -/

/-- A row [1, n] broadcast over 512 rows reads, at (p, j), the row at j. -/
theorem row_over_rows (v : FVec Ideal S1x768 .f32) (p : Fin 512) (j : Fin 768) :
    broadcastTo S512x768 v broadcasts_S1x768_S512x768 (ix2 p j) = v (ix2 (0 : Fin 1) j) :=
  broadcastTo_1b_ab_apply v _ p j

theorem row_over_rows10 (v : FVec Ideal S1x10 .f32) (p : Fin 512) (q : Fin 10) :
    broadcastTo S512x10 v broadcasts_S1x10_S512x10 (ix2 p q) = v (ix2 (0 : Fin 1) q) :=
  broadcastTo_1b_ab_apply v _ p q

/-- A row block cast to its own shape is itself. -/
theorem row_cast (v : FVec Ideal S1x768 .f32) : shapeCast S1x768 v shapeCasts_S1x768_S1x768 = v := shapeCast_self v _

theorem row_cast10 (v : FVec Ideal S1x10 .f32) : shapeCast S1x10 v shapeCasts_S1x10_S1x10 = v := shapeCast_self v _

/-! ## The parameters of a layer, read from blocks -/

/-- A layer's parameters read from a weight block [n, k] and five row blocks [1, n]. -/
def layerOfRows {k n : ℕ} (W : FVec Ideal ⟨2, ![n, k]⟩ .f32) (b g be mu var : FVec Ideal ⟨2, ![1, n]⟩ .f32) : Layer k n where
  W := fun j l => W (ix2 j l)
  b := fun j => b (ix2 (0 : Fin 1) j)
  g := fun j => g (ix2 (0 : Fin 1) j)
  be := fun j => be (ix2 (0 : Fin 1) j)
  mu := fun j => mu (ix2 (0 : Fin 1) j)
  var := fun j => var (ix2 (0 : Fin 1) j)

/-! ## The products against the transposed weights -/

/-- The first layer's product against the transposed weights, at (p, j): row p of the input against row j of the weights. -/
theorem first_dense (v0 : FVec Ideal S512x784 .f32) (W : FVec Ideal S768x784 .bf16) (p : Fin 512) (j : Fin 768) :
    matmul dot_S512x784_S784x768_S512x768_1_0_0_1_n_n none (truncf .bf16 v0 bitsLt_bf16_f32)
      (transpose S784x768 [1, 0] W transposes_S768x784_p1_0_S784x768) (constant S512x768 .f32 0x00000000#32) (ix2 p j)
      = ∑ k : Fin 784, v0 (ix2 p k) * W (ix2 j k) :=
  (first_prod _ _ p j).trans (Finset.sum_congr rfl fun k _ => congrArg (v0 (ix2 p k) * ·) (first_transposed W k j))

/-- A hidden layer's product against the transposed weights, at (p, j). -/
theorem hidden_dense (A : FVec Ideal S512x768 .bf16) (W : FVec Ideal S768x768 .bf16) (p : Fin 512) (j : Fin 768) :
    matmul dot_S512x768_S768x768_S512x768_1_0_0_1_n_n none A
      (transpose S768x768 [1, 0] W transposes_S768x768_p1_0_S768x768) (constant S512x768 .f32 0x00000000#32) (ix2 p j)
      = ∑ k : Fin 768, A (ix2 p k) * W (ix2 j k) :=
  (hidden_prod _ _ p j).trans (Finset.sum_congr rfl fun k _ => congrArg (A (ix2 p k) * ·) (hidden_transposed W k j))

/-- The last layer's product against the transposed weights, at (p, q). -/
theorem last_dense (A : FVec Ideal S512x768 .bf16) (W : FVec Ideal S10x768 .bf16) (p : Fin 512) (q : Fin 10) :
    matmul dot_S512x768_S768x10_S512x10_1_0_0_1_n_n none A
      (transpose S768x10 [1, 0] W transposes_S10x768_p1_0_S768x10) (constant S512x10 .f32 0x00000000#32) (ix2 p q)
      = ∑ k : Fin 768, A (ix2 p k) * W (ix2 q k) :=
  (last_prod _ _ p q).trans (Finset.sum_congr rfl fun k _ => congrArg (A (ix2 p k) * ·) (last_transposed W k q))

/-! ## The four terms of the body, each at an entry -/

/-- The first term is the first hidden layer on row p of the input block. -/
theorem first_apply (v0 : Vec Ideal S512x784 .f32) (v2 : Vec Ideal S768x784 .f32) (v11 v15 v19 v21 v29 : Vec Ideal S1x768 .f32)
    (p : Fin 512) (j : Fin 768) :
    k0_pay2 v0 v2 v11 v15 v19 v21 v29 (ix2 p j) = (layerOfRows v2 v11 v19 v29 v15 v21).act (fun k => v0 (ix2 p k)) j := by
  unfold k0_pay2
  simp only [minimumf_apply, maximumf_apply, addf_apply, mulf_apply, subf_apply, broadcast_apply, row_over_rows, row_cast]
  rw [first_dense]
  rfl

/-- The second term is the second hidden layer, up to the lower half of its clamp, on the signs of row p of the first. -/
theorem second_apply (v36 : FVec Ideal S512x768 .f32) (v43 : Vec Ideal S768x768 .f32) (v52 v56 v60 v62 v70 : Vec Ideal S1x768 .f32)
    (p : Fin 512) (j : Fin 768) :
    k0_pay3 v36 (Scalar.ofBits .f32 0x00000000#32) v43 v52 v56 v60 v62 v70 (ix2 p j)
      = max negOneW ((layerOfRows v43 v52 v60 v70 v56 v62).pre (fun l => bin (v36 (ix2 p l))) j) := by
  unfold k0_pay3
  simp only [maximumf_apply, addf_apply, mulf_apply, subf_apply, broadcast_apply, row_over_rows, row_cast]
  rw [hidden_dense]
  rfl

/-- The third term is the upper half of the second clamp and then the third hidden layer up to its batch norm. -/
theorem third_apply (v75 : FVec Ideal S512x768 .f32) (v84 : Vec Ideal S768x768 .f32) (v93 v97 v101 v103 v111 : Vec Ideal S1x768 .f32)
    (p : Fin 512) (j : Fin 768) :
    k0_pay4 (Scalar.ofBits .f32 0x3F800000#32) v75 v84 v93 v97 v101 v103 v111 (ix2 p j)
      = (layerOfRows v84 v93 v101 v111 v97 v103).pre (fun l => bin (min oneW (v75 (ix2 p l)))) j := by
  unfold k0_pay4
  simp only [addf_apply, mulf_apply, subf_apply, broadcast_apply, row_over_rows, row_cast]
  rw [hidden_dense]
  rfl

/-! ## The log-softmax along the classes -/

/-- A column [512, 1] broadcast over the ten classes reads, at (p, q), the column at p. -/
theorem col_over_classes (v : FVec Ideal S512x1 .f32) (p : Fin 512) (q : Fin 10) :
    broadcastTo S512x10 v broadcasts_S512x1_S512x10 (ix2 p q) = v (ix2 p (0 : Fin 1)) :=
  Cert.LibKeepdims.bcast_col v _ p q

/-- A vector [512] kept as a column reads, at (p, ·), the vector at p. -/
theorem col_cast (x : FVec Ideal S512 .f32) (p : Fin 512) (u : Fin 1) :
    shapeCast S512x1 x shapeCasts_S512_S512x1 (ix2 p u) = x (ix1 p) :=
  Cert.LibKeepdims.cast_vec_col x _ p u

/-- The maximum along the classes from −∞, at row p. -/
theorem class_max (src : FVec Ideal S512x10 .f32) (p : Fin 512) :
    multiReduction .maximumf [1] S512 src 0xFF800000#32 reduces_S512x10_S512 (.inl rfl) rfl (ix1 p)
      = rowMax (fun c => src (ix2 p c)) :=
  Cert.LibKeepdims.max_row src _ _ _ p

/-- The sum along the classes, at row p. -/
theorem class_sum (src : FVec Ideal S512x10 .f32) (p : Fin 512) :
    multiReduction .add [1] S512 src 0x00000000#32 reduces_S512x10_S512 (.inl rfl) rfl (ix1 p)
      = ∑ c : Fin 10, src (ix2 p c) :=
  Cert.LibKeepdims.sum_row src _ _ _ p

/-- The body's log-softmax of a block of logits, at (p, q), is the log-softmax of row p. -/
theorem log_softmax_apply (z : FVec Ideal S512x10 .f32) (p : Fin 512) (q : Fin 10) :
    subf (subf z (broadcastTo S512x10 (shapeCast S512x1 (multiReduction .maximumf [1] S512 z 0xFF800000#32 reduces_S512x10_S512 (.inl rfl) rfl) shapeCasts_S512_S512x1) broadcasts_S512x1_S512x10))
      (broadcastTo S512x10 (log (shapeCast S512x1 (multiReduction .add [1] S512
        (exp (subf z (broadcastTo S512x10 (shapeCast S512x1 (multiReduction .maximumf [1] S512 z 0xFF800000#32 reduces_S512x10_S512 (.inl rfl) rfl) shapeCasts_S512_S512x1) broadcasts_S512x1_S512x10)))
        0x00000000#32 reduces_S512x10_S512 (.inl rfl) rfl) shapeCasts_S512_S512x1)) broadcasts_S512x1_S512x10) (ix2 p q)
      = logSoftmax (fun c => z (ix2 p c)) q := by
  have hM : ∀ c : Fin 10, (subf z (broadcastTo S512x10 (shapeCast S512x1 (multiReduction .maximumf [1] S512 z 0xFF800000#32 reduces_S512x10_S512 (.inl rfl) rfl) shapeCasts_S512_S512x1) broadcasts_S512x1_S512x10)) (ix2 p c)
      = z (ix2 p c) - rowMax (fun c => z (ix2 p c)) := fun c => by
    rw [subf_apply, col_over_classes, col_cast, class_max]
  rw [subf_apply, hM, col_over_classes]
  show _ - FloatOps.log (shapeCast S512x1 _ shapeCasts_S512_S512x1 (ix2 p (0 : Fin 1))) = _
  rw [col_cast, class_sum]
  unfold logSoftmax
  refine congrArg (fun s => (z (ix2 p q) - rowMax (fun c => z (ix2 p c))) - Ideal.log s) (Finset.sum_congr rfl fun c _ => ?_)
  show FloatOps.exp _ = _
  rw [hM]
  rfl

/-- The fourth term is the third clamp, the last linear layer and the log-softmax, on row p of the third layer. -/
theorem last_apply (v114 : FVec Ideal S512x768 .f32) (v120 : Vec Ideal S10x768 .f32) (v124 : Vec Ideal S1x10 .f32)
    (p : Fin 512) (q : Fin 10) :
    k0_pay1 v114 (Scalar.ofBits .f32 0xBF800000#32) v120 v124 (ix2 p q)
      = logSoftmax (dense (fun l => min oneW (max negOneW (v114 (ix2 p l)))) (fun c l => v120 (ix2 c l))
          (fun c => v124 (ix2 (0 : Fin 1) c))) q := by
  unfold k0_pay1
  rw [log_softmax_apply]
  refine congrArg (fun z : Fin 10 → EReal => logSoftmax z q) (funext fun c => ?_)
  simp only [addf_apply, row_over_rows10, row_cast10]
  rw [last_dense]
  rfl

/-! ## The stored block -/

theorem origin2 : (![0, 0] : Fin 2 → Nat) = fun _ => 0 := funext fun a => by fin_cases a <;> rfl

/-- Entry (p, q) of the block the body stores is the network on row p of the input block, at class q, with the
    parameters read from the weight and row blocks. -/
theorem stored_apply (x0 : Vec Ideal S512x784 .f32) (x1 : Vec Ideal S768x784 .f32) (x2 : Vec Ideal S1x768 .f32)
    (x3 : Vec Ideal S768x768 .f32) (x4 : Vec Ideal S1x768 .f32) (x5 : Vec Ideal S768x768 .f32) (x6 : Vec Ideal S1x768 .f32)
    (x7 : Vec Ideal S10x768 .f32) (x8 : Vec Ideal S1x10 .f32)
    (x9 x10 x11 x12 x13 x14 x15 x16 x17 x18 x19 x20 : Vec Ideal S1x768 .f32) (p : Fin 512) (q : Fin 10) :
    out0_21 x0 x1 x2 x3 x4 x5 x6 x7 x8 x9 x10 x11 x12 x13 x14 x15 x16 x17 x18 x19 x20 (ix2 p q)
      = net (layerOfRows x1 x2 x9 x10 x11 x12) (layerOfRows x3 x4 x13 x14 x15 x16) (layerOfRows x5 x6 x17 x18 x19 x20)
          (fun c l => x7 (ix2 c l)) (fun c => x8 (ix2 (0 : Fin 1) c)) (fun k => x0 (ix2 p k)) q := by
  unfold out0_21
  rw [View.canon_unit_zero origin2]
  simp only [View.ld_unit_zero (S := S512x784) origin2, View.ld_unit_zero (S := S768x784) origin2,
    View.ld_unit_zero (S := S1x768) origin2, View.ld_unit_zero (S := S768x768) origin2,
    View.ld_unit_zero (S := S10x768) origin2, View.ld_unit_zero (S := S1x10) origin2]
  rw [last_apply]
  simp only [third_apply, second_apply, first_apply]
  rfl

end Cert.KernelRow

end
-- ==== Proof.KernelValue.lean ====
/-
  From the blocks the grid points write back to the whole output array, and the kernel's run.

  The grid has 32 points; point t takes rows 512 · t … 512 · t + 511 of the input through the whole network and writes
  the same rows of the output. Every parameter is staged whole at every point: the weight matrices as they are, each
  bias and batch-norm vector [n] as the row [1, n] a host reshape makes of it. So the blocks the body loads at point t
  are row-block t of the input and the parameters themselves, and what it stores (Proof/KernelRow.lean) is, at (p, q),
  the network on input row 512 · t + p at class q: block t of the one function G of the argument arrays
  (Proof/BinNet.lean). The 32 output blocks tile the 16384 rows, so after the run the output array is G.
-/
import proofs.«177683_j45140106281104_1_alg».proof.Proof.Gen.KernelIdeal.Value
import proofs.«177683_j45140106281104_1_alg».proof.Proof.KernelRow
import Idealize.ShloMosaic.Lib.StableHlo.Run

noncomputable section

namespace Cert.KernelValue

open Cert.KernelIdeal Cert.KernelIdeal.Gen Idealize.ShloMosaic Idealize.ShloMosaic.TcCoe Idealize.SL.Sem
open Idealize.ShloMosaic.ValueIdx Cert.BinNet Cert.KernelRow
open Idealize.ShloMosaic.Pipeline (Dat)

variable (m : (ℓ : Loc nD τ sig) → Buf (Elt Ideal) ℓ) (ρ : Dev nD → PrngReg)

/-! ## Which block a grid point reads and writes -/

/-- Row p of the block of grid point t is row 512 · t + p of the array. -/
def rowOf (t : Fin cfg0.N) (p : Fin 512) : Fin 16384 :=
  ⟨t.val * 512 + p.val, by have h1 := t.isLt; have h2 : cfg0.N = 32 := N_0; have h3 := p.isLt; omega⟩

/-- The input's and the output's windows move with the grid point along the rows; decided over the 32 points. -/
theorem moves0 : ∀ t : Fin cfg0.N, win0_0.index t (0 : Fin 2) = t.val ∧ win0_0.index t (1 : Fin 2) = 0 :=
  (by decide +kernel : ∀ t : Fin grid0.N, _)
theorem moves21 : ∀ t : Fin cfg0.N, win0_21.index t (0 : Fin 2) = t.val ∧ win0_21.index t (1 : Fin 2) = 0 :=
  (by decide +kernel : ∀ t : Fin grid0.N, _)

/-- Every parameter's window stays at block (0, 0): its one block is the whole array. Decided over the 32 points. -/
theorem stays1 : ∀ t : Fin cfg0.N, win0_1.index t (0 : Fin 2) = 0 ∧ win0_1.index t (1 : Fin 2) = 0 :=
  (by decide +kernel : ∀ t : Fin grid0.N, _)
theorem stays2 : ∀ t : Fin cfg0.N, win0_2.index t (0 : Fin 2) = 0 ∧ win0_2.index t (1 : Fin 2) = 0 :=
  (by decide +kernel : ∀ t : Fin grid0.N, _)
theorem stays3 : ∀ t : Fin cfg0.N, win0_3.index t (0 : Fin 2) = 0 ∧ win0_3.index t (1 : Fin 2) = 0 :=
  (by decide +kernel : ∀ t : Fin grid0.N, _)
theorem stays4 : ∀ t : Fin cfg0.N, win0_4.index t (0 : Fin 2) = 0 ∧ win0_4.index t (1 : Fin 2) = 0 :=
  (by decide +kernel : ∀ t : Fin grid0.N, _)
theorem stays5 : ∀ t : Fin cfg0.N, win0_5.index t (0 : Fin 2) = 0 ∧ win0_5.index t (1 : Fin 2) = 0 :=
  (by decide +kernel : ∀ t : Fin grid0.N, _)
theorem stays6 : ∀ t : Fin cfg0.N, win0_6.index t (0 : Fin 2) = 0 ∧ win0_6.index t (1 : Fin 2) = 0 :=
  (by decide +kernel : ∀ t : Fin grid0.N, _)
theorem stays7 : ∀ t : Fin cfg0.N, win0_7.index t (0 : Fin 2) = 0 ∧ win0_7.index t (1 : Fin 2) = 0 :=
  (by decide +kernel : ∀ t : Fin grid0.N, _)
theorem stays8 : ∀ t : Fin cfg0.N, win0_8.index t (0 : Fin 2) = 0 ∧ win0_8.index t (1 : Fin 2) = 0 :=
  (by decide +kernel : ∀ t : Fin grid0.N, _)
theorem stays9 : ∀ t : Fin cfg0.N, win0_9.index t (0 : Fin 2) = 0 ∧ win0_9.index t (1 : Fin 2) = 0 :=
  (by decide +kernel : ∀ t : Fin grid0.N, _)
theorem stays10 : ∀ t : Fin cfg0.N, win0_10.index t (0 : Fin 2) = 0 ∧ win0_10.index t (1 : Fin 2) = 0 :=
  (by decide +kernel : ∀ t : Fin grid0.N, _)
theorem stays11 : ∀ t : Fin cfg0.N, win0_11.index t (0 : Fin 2) = 0 ∧ win0_11.index t (1 : Fin 2) = 0 :=
  (by decide +kernel : ∀ t : Fin grid0.N, _)
theorem stays12 : ∀ t : Fin cfg0.N, win0_12.index t (0 : Fin 2) = 0 ∧ win0_12.index t (1 : Fin 2) = 0 :=
  (by decide +kernel : ∀ t : Fin grid0.N, _)
theorem stays13 : ∀ t : Fin cfg0.N, win0_13.index t (0 : Fin 2) = 0 ∧ win0_13.index t (1 : Fin 2) = 0 :=
  (by decide +kernel : ∀ t : Fin grid0.N, _)
theorem stays14 : ∀ t : Fin cfg0.N, win0_14.index t (0 : Fin 2) = 0 ∧ win0_14.index t (1 : Fin 2) = 0 :=
  (by decide +kernel : ∀ t : Fin grid0.N, _)
theorem stays15 : ∀ t : Fin cfg0.N, win0_15.index t (0 : Fin 2) = 0 ∧ win0_15.index t (1 : Fin 2) = 0 :=
  (by decide +kernel : ∀ t : Fin grid0.N, _)
theorem stays16 : ∀ t : Fin cfg0.N, win0_16.index t (0 : Fin 2) = 0 ∧ win0_16.index t (1 : Fin 2) = 0 :=
  (by decide +kernel : ∀ t : Fin grid0.N, _)
theorem stays17 : ∀ t : Fin cfg0.N, win0_17.index t (0 : Fin 2) = 0 ∧ win0_17.index t (1 : Fin 2) = 0 :=
  (by decide +kernel : ∀ t : Fin grid0.N, _)
theorem stays18 : ∀ t : Fin cfg0.N, win0_18.index t (0 : Fin 2) = 0 ∧ win0_18.index t (1 : Fin 2) = 0 :=
  (by decide +kernel : ∀ t : Fin grid0.N, _)
theorem stays19 : ∀ t : Fin cfg0.N, win0_19.index t (0 : Fin 2) = 0 ∧ win0_19.index t (1 : Fin 2) = 0 :=
  (by decide +kernel : ∀ t : Fin grid0.N, _)
theorem stays20 : ∀ t : Fin cfg0.N, win0_20.index t (0 : Fin 2) = 0 ∧ win0_20.index t (1 : Fin 2) = 0 :=
  (by decide +kernel : ∀ t : Fin grid0.N, _)

/-! ## The input block and the weight matrices, read through their windows

  A window's block at a point reads the array at the block's coordinates: block index × block size + the coordinate
  inside the block, on each axis. -/

/-- Row p of the input block at point t is row 512 · t + p of the input. -/
theorem input_block (c : Dev nD) (t : Fin cfg0.N) (p : Fin 512) (k : Fin 784) :
    iblk m c 0 t (ix2 p k) = m ((c : Thread nD τ).loc main_arg0) (ix2 (rowOf t p) k) := by
  have e : ((cfg0.win 0).blk t).view.emb (ix2 p k) = ix2 (rowOf t p) k := funext fun a => Fin.ext (by
    match a with
    | ⟨0, _⟩ => show win0_0.index t (0 : Fin 2) * 512 + 1 * p.val = t.val * 512 + p.val; rw [(moves0 t).1]; omega
    | ⟨1, _⟩ => show win0_0.index t (1 : Fin 2) * 784 + 1 * k.val = k.val; rw [(moves0 t).2]; omega)
  show V m c main_arg0 (((cfg0.win 0).blk t).view.emb (ix2 p k)) = _
  rw [e, V_main_arg0]

/-- The first layer's weight block is the weight matrix. -/
theorem weights1_block (c : Dev nD) (t : Fin cfg0.N) (j : Fin 768) (l : Fin 784) :
    iblk m c 1 t (ix2 j l) = m ((c : Thread nD τ).loc main_arg1) (ix2 j l) := by
  have e : ((cfg0.win 1).blk t).view.emb (ix2 j l) = ix2 j l := funext fun a => Fin.ext (by
    match a with
    | ⟨0, _⟩ => show win0_1.index t (0 : Fin 2) * 768 + 1 * j.val = j.val; rw [(stays1 t).1]; omega
    | ⟨1, _⟩ => show win0_1.index t (1 : Fin 2) * 784 + 1 * l.val = l.val; rw [(stays1 t).2]; omega)
  show V m c main_arg1 (((cfg0.win 1).blk t).view.emb (ix2 j l)) = _
  rw [e, V_main_arg1]

/-- The second layer's weight block is the weight matrix. -/
theorem weights2_block (c : Dev nD) (t : Fin cfg0.N) (j : Fin 768) (l : Fin 768) :
    iblk m c 3 t (ix2 j l) = m ((c : Thread nD τ).loc main_arg3) (ix2 j l) := by
  have e : ((cfg0.win 3).blk t).view.emb (ix2 j l) = ix2 j l := funext fun a => Fin.ext (by
    match a with
    | ⟨0, _⟩ => show win0_3.index t (0 : Fin 2) * 768 + 1 * j.val = j.val; rw [(stays3 t).1]; omega
    | ⟨1, _⟩ => show win0_3.index t (1 : Fin 2) * 768 + 1 * l.val = l.val; rw [(stays3 t).2]; omega)
  show V m c main_arg3 (((cfg0.win 3).blk t).view.emb (ix2 j l)) = _
  rw [e, V_main_arg3]

/-- The third layer's weight block is the weight matrix. -/
theorem weights3_block (c : Dev nD) (t : Fin cfg0.N) (j : Fin 768) (l : Fin 768) :
    iblk m c 5 t (ix2 j l) = m ((c : Thread nD τ).loc main_arg5) (ix2 j l) := by
  have e : ((cfg0.win 5).blk t).view.emb (ix2 j l) = ix2 j l := funext fun a => Fin.ext (by
    match a with
    | ⟨0, _⟩ => show win0_5.index t (0 : Fin 2) * 768 + 1 * j.val = j.val; rw [(stays5 t).1]; omega
    | ⟨1, _⟩ => show win0_5.index t (1 : Fin 2) * 768 + 1 * l.val = l.val; rw [(stays5 t).2]; omega)
  show V m c main_arg5 (((cfg0.win 5).blk t).view.emb (ix2 j l)) = _
  rw [e, V_main_arg5]

/-- The last layer's weight block is the weight matrix. -/
theorem weights4_block (c : Dev nD) (t : Fin cfg0.N) (q : Fin 10) (l : Fin 768) :
    iblk m c 7 t (ix2 q l) = m ((c : Thread nD τ).loc main_arg7) (ix2 q l) := by
  have e : ((cfg0.win 7).blk t).view.emb (ix2 q l) = ix2 q l := funext fun a => Fin.ext (by
    match a with
    | ⟨0, _⟩ => show win0_7.index t (0 : Fin 2) * 10 + 1 * q.val = q.val; rw [(stays7 t).1]; omega
    | ⟨1, _⟩ => show win0_7.index t (1 : Fin 2) * 768 + 1 * l.val = l.val; rw [(stays7 t).2]; omega)
  show V m c main_arg7 (((cfg0.win 7).blk t).view.emb (ix2 q l)) = _
  rw [e, V_main_arg7]

/-! ## The row blocks

  Each bias and each batch-norm vector [n] reaches the kernel as a row [1, n]: a host reshape of the argument, staged
  whole. Read at (0, j), the row block is the argument at j. -/

/-- The first layer's bias. -/
theorem bias1_block (c : Dev nD) (t : Fin cfg0.N) (j : Fin 768) :
    iblk m c 2 t (ix2 (0 : Fin 1) j) = m ((c : Thread nD τ).loc main_arg2) (ix1 j) := by
  have e : ((cfg0.win 2).blk t).view.emb (ix2 (0 : Fin 1) j) = ix2 (0 : Fin 1) j := funext fun a => Fin.ext (by
    match a with
    | ⟨0, _⟩ => show win0_2.index t (0 : Fin 2) * 1 + 1 * 0 = 0; rw [(stays2 t).1]
    | ⟨1, _⟩ => show win0_2.index t (1 : Fin 2) * 768 + 1 * j.val = j.val; rw [(stays2 t).2]; omega)
  have hv : (V m c main_v0 : S1x768.Idx → EReal) = shapeCast S1x768 (m ((c : Thread nD τ).loc main_arg2)) shapeCasts_S768_S1x768 := by
    dsimp only [V, hostOps0]; after_results; rfl
  show V m c main_v0 (((cfg0.win 2).blk t).view.emb (ix2 (0 : Fin 1) j)) = _
  rw [e, hv]
  exact shapeCast_a_1a_apply _ _ (0 : Fin 1) j

/-- The second layer's bias. -/
theorem bias2_block (c : Dev nD) (t : Fin cfg0.N) (j : Fin 768) :
    iblk m c 4 t (ix2 (0 : Fin 1) j) = m ((c : Thread nD τ).loc main_arg4) (ix1 j) := by
  have e : ((cfg0.win 4).blk t).view.emb (ix2 (0 : Fin 1) j) = ix2 (0 : Fin 1) j := funext fun a => Fin.ext (by
    match a with
    | ⟨0, _⟩ => show win0_4.index t (0 : Fin 2) * 1 + 1 * 0 = 0; rw [(stays4 t).1]
    | ⟨1, _⟩ => show win0_4.index t (1 : Fin 2) * 768 + 1 * j.val = j.val; rw [(stays4 t).2]; omega)
  have hv : (V m c main_v1 : S1x768.Idx → EReal) = shapeCast S1x768 (m ((c : Thread nD τ).loc main_arg4)) shapeCasts_S768_S1x768 := by
    dsimp only [V, hostOps0]; after_results; rfl
  show V m c main_v1 (((cfg0.win 4).blk t).view.emb (ix2 (0 : Fin 1) j)) = _
  rw [e, hv]
  exact shapeCast_a_1a_apply _ _ (0 : Fin 1) j

/-- The third layer's bias. -/
theorem bias3_block (c : Dev nD) (t : Fin cfg0.N) (j : Fin 768) :
    iblk m c 6 t (ix2 (0 : Fin 1) j) = m ((c : Thread nD τ).loc main_arg6) (ix1 j) := by
  have e : ((cfg0.win 6).blk t).view.emb (ix2 (0 : Fin 1) j) = ix2 (0 : Fin 1) j := funext fun a => Fin.ext (by
    match a with
    | ⟨0, _⟩ => show win0_6.index t (0 : Fin 2) * 1 + 1 * 0 = 0; rw [(stays6 t).1]
    | ⟨1, _⟩ => show win0_6.index t (1 : Fin 2) * 768 + 1 * j.val = j.val; rw [(stays6 t).2]; omega)
  have hv : (V m c main_v2 : S1x768.Idx → EReal) = shapeCast S1x768 (m ((c : Thread nD τ).loc main_arg6)) shapeCasts_S768_S1x768 := by
    dsimp only [V, hostOps0]; after_results; rfl
  show V m c main_v2 (((cfg0.win 6).blk t).view.emb (ix2 (0 : Fin 1) j)) = _
  rw [e, hv]
  exact shapeCast_a_1a_apply _ _ (0 : Fin 1) j

/-- The last layer's bias, a row of ten. -/
theorem bias4_block (c : Dev nD) (t : Fin cfg0.N) (q : Fin 10) :
    iblk m c 8 t (ix2 (0 : Fin 1) q) = m ((c : Thread nD τ).loc main_arg8) (ix1 q) := by
  have e : ((cfg0.win 8).blk t).view.emb (ix2 (0 : Fin 1) q) = ix2 (0 : Fin 1) q := funext fun a => Fin.ext (by
    match a with
    | ⟨0, _⟩ => show win0_8.index t (0 : Fin 2) * 1 + 1 * 0 = 0; rw [(stays8 t).1]
    | ⟨1, _⟩ => show win0_8.index t (1 : Fin 2) * 10 + 1 * q.val = q.val; rw [(stays8 t).2]; omega)
  have hv : (V m c main_v3 : S1x10.Idx → EReal) = shapeCast S1x10 (m ((c : Thread nD τ).loc main_arg8)) shapeCasts_S10_S1x10 := by
    dsimp only [V, hostOps0]; after_results; rfl
  show V m c main_v3 (((cfg0.win 8).blk t).view.emb (ix2 (0 : Fin 1) q)) = _
  rw [e, hv]
  exact shapeCast_a_1a_apply _ _ (0 : Fin 1) q

/-- The first batch norm's γ. -/
theorem gamma1_block (c : Dev nD) (t : Fin cfg0.N) (j : Fin 768) :
    iblk m c 9 t (ix2 (0 : Fin 1) j) = m ((c : Thread nD τ).loc main_arg9) (ix1 j) := by
  have e : ((cfg0.win 9).blk t).view.emb (ix2 (0 : Fin 1) j) = ix2 (0 : Fin 1) j := funext fun a => Fin.ext (by
    match a with
    | ⟨0, _⟩ => show win0_9.index t (0 : Fin 2) * 1 + 1 * 0 = 0; rw [(stays9 t).1]
    | ⟨1, _⟩ => show win0_9.index t (1 : Fin 2) * 768 + 1 * j.val = j.val; rw [(stays9 t).2]; omega)
  have hv : (V m c main_v4 : S1x768.Idx → EReal) = shapeCast S1x768 (m ((c : Thread nD τ).loc main_arg9)) shapeCasts_S768_S1x768 := by
    dsimp only [V, hostOps0]; after_results; rfl
  show V m c main_v4 (((cfg0.win 9).blk t).view.emb (ix2 (0 : Fin 1) j)) = _
  rw [e, hv]
  exact shapeCast_a_1a_apply _ _ (0 : Fin 1) j

/-- The first batch norm's β. -/
theorem beta1_block (c : Dev nD) (t : Fin cfg0.N) (j : Fin 768) :
    iblk m c 10 t (ix2 (0 : Fin 1) j) = m ((c : Thread nD τ).loc main_arg10) (ix1 j) := by
  have e : ((cfg0.win 10).blk t).view.emb (ix2 (0 : Fin 1) j) = ix2 (0 : Fin 1) j := funext fun a => Fin.ext (by
    match a with
    | ⟨0, _⟩ => show win0_10.index t (0 : Fin 2) * 1 + 1 * 0 = 0; rw [(stays10 t).1]
    | ⟨1, _⟩ => show win0_10.index t (1 : Fin 2) * 768 + 1 * j.val = j.val; rw [(stays10 t).2]; omega)
  have hv : (V m c main_v5 : S1x768.Idx → EReal) = shapeCast S1x768 (m ((c : Thread nD τ).loc main_arg10)) shapeCasts_S768_S1x768 := by
    dsimp only [V, hostOps0]; after_results; rfl
  show V m c main_v5 (((cfg0.win 10).blk t).view.emb (ix2 (0 : Fin 1) j)) = _
  rw [e, hv]
  exact shapeCast_a_1a_apply _ _ (0 : Fin 1) j

/-- The first batch norm's μ. -/
theorem mean1_block (c : Dev nD) (t : Fin cfg0.N) (j : Fin 768) :
    iblk m c 11 t (ix2 (0 : Fin 1) j) = m ((c : Thread nD τ).loc main_arg11) (ix1 j) := by
  have e : ((cfg0.win 11).blk t).view.emb (ix2 (0 : Fin 1) j) = ix2 (0 : Fin 1) j := funext fun a => Fin.ext (by
    match a with
    | ⟨0, _⟩ => show win0_11.index t (0 : Fin 2) * 1 + 1 * 0 = 0; rw [(stays11 t).1]
    | ⟨1, _⟩ => show win0_11.index t (1 : Fin 2) * 768 + 1 * j.val = j.val; rw [(stays11 t).2]; omega)
  have hv : (V m c main_v6 : S1x768.Idx → EReal) = shapeCast S1x768 (m ((c : Thread nD τ).loc main_arg11)) shapeCasts_S768_S1x768 := by
    dsimp only [V, hostOps0]; after_results; rfl
  show V m c main_v6 (((cfg0.win 11).blk t).view.emb (ix2 (0 : Fin 1) j)) = _
  rw [e, hv]
  exact shapeCast_a_1a_apply _ _ (0 : Fin 1) j

/-- The first batch norm's σ². -/
theorem var1_block (c : Dev nD) (t : Fin cfg0.N) (j : Fin 768) :
    iblk m c 12 t (ix2 (0 : Fin 1) j) = m ((c : Thread nD τ).loc main_arg12) (ix1 j) := by
  have e : ((cfg0.win 12).blk t).view.emb (ix2 (0 : Fin 1) j) = ix2 (0 : Fin 1) j := funext fun a => Fin.ext (by
    match a with
    | ⟨0, _⟩ => show win0_12.index t (0 : Fin 2) * 1 + 1 * 0 = 0; rw [(stays12 t).1]
    | ⟨1, _⟩ => show win0_12.index t (1 : Fin 2) * 768 + 1 * j.val = j.val; rw [(stays12 t).2]; omega)
  have hv : (V m c main_v7 : S1x768.Idx → EReal) = shapeCast S1x768 (m ((c : Thread nD τ).loc main_arg12)) shapeCasts_S768_S1x768 := by
    dsimp only [V, hostOps0]; after_results; rfl
  show V m c main_v7 (((cfg0.win 12).blk t).view.emb (ix2 (0 : Fin 1) j)) = _
  rw [e, hv]
  exact shapeCast_a_1a_apply _ _ (0 : Fin 1) j

/-- The second batch norm's γ. -/
theorem gamma2_block (c : Dev nD) (t : Fin cfg0.N) (j : Fin 768) :
    iblk m c 13 t (ix2 (0 : Fin 1) j) = m ((c : Thread nD τ).loc main_arg13) (ix1 j) := by
  have e : ((cfg0.win 13).blk t).view.emb (ix2 (0 : Fin 1) j) = ix2 (0 : Fin 1) j := funext fun a => Fin.ext (by
    match a with
    | ⟨0, _⟩ => show win0_13.index t (0 : Fin 2) * 1 + 1 * 0 = 0; rw [(stays13 t).1]
    | ⟨1, _⟩ => show win0_13.index t (1 : Fin 2) * 768 + 1 * j.val = j.val; rw [(stays13 t).2]; omega)
  have hv : (V m c main_v8 : S1x768.Idx → EReal) = shapeCast S1x768 (m ((c : Thread nD τ).loc main_arg13)) shapeCasts_S768_S1x768 := by
    dsimp only [V, hostOps0]; after_results; rfl
  show V m c main_v8 (((cfg0.win 13).blk t).view.emb (ix2 (0 : Fin 1) j)) = _
  rw [e, hv]
  exact shapeCast_a_1a_apply _ _ (0 : Fin 1) j

/-- The second batch norm's β. -/
theorem beta2_block (c : Dev nD) (t : Fin cfg0.N) (j : Fin 768) :
    iblk m c 14 t (ix2 (0 : Fin 1) j) = m ((c : Thread nD τ).loc main_arg14) (ix1 j) := by
  have e : ((cfg0.win 14).blk t).view.emb (ix2 (0 : Fin 1) j) = ix2 (0 : Fin 1) j := funext fun a => Fin.ext (by
    match a with
    | ⟨0, _⟩ => show win0_14.index t (0 : Fin 2) * 1 + 1 * 0 = 0; rw [(stays14 t).1]
    | ⟨1, _⟩ => show win0_14.index t (1 : Fin 2) * 768 + 1 * j.val = j.val; rw [(stays14 t).2]; omega)
  have hv : (V m c main_v9 : S1x768.Idx → EReal) = shapeCast S1x768 (m ((c : Thread nD τ).loc main_arg14)) shapeCasts_S768_S1x768 := by
    dsimp only [V, hostOps0]; after_results; rfl
  show V m c main_v9 (((cfg0.win 14).blk t).view.emb (ix2 (0 : Fin 1) j)) = _
  rw [e, hv]
  exact shapeCast_a_1a_apply _ _ (0 : Fin 1) j

/-- The second batch norm's μ. -/
theorem mean2_block (c : Dev nD) (t : Fin cfg0.N) (j : Fin 768) :
    iblk m c 15 t (ix2 (0 : Fin 1) j) = m ((c : Thread nD τ).loc main_arg15) (ix1 j) := by
  have e : ((cfg0.win 15).blk t).view.emb (ix2 (0 : Fin 1) j) = ix2 (0 : Fin 1) j := funext fun a => Fin.ext (by
    match a with
    | ⟨0, _⟩ => show win0_15.index t (0 : Fin 2) * 1 + 1 * 0 = 0; rw [(stays15 t).1]
    | ⟨1, _⟩ => show win0_15.index t (1 : Fin 2) * 768 + 1 * j.val = j.val; rw [(stays15 t).2]; omega)
  have hv : (V m c main_v10 : S1x768.Idx → EReal) = shapeCast S1x768 (m ((c : Thread nD τ).loc main_arg15)) shapeCasts_S768_S1x768 := by
    dsimp only [V, hostOps0]; after_results; rfl
  show V m c main_v10 (((cfg0.win 15).blk t).view.emb (ix2 (0 : Fin 1) j)) = _
  rw [e, hv]
  exact shapeCast_a_1a_apply _ _ (0 : Fin 1) j

/-- The second batch norm's σ². -/
theorem var2_block (c : Dev nD) (t : Fin cfg0.N) (j : Fin 768) :
    iblk m c 16 t (ix2 (0 : Fin 1) j) = m ((c : Thread nD τ).loc main_arg16) (ix1 j) := by
  have e : ((cfg0.win 16).blk t).view.emb (ix2 (0 : Fin 1) j) = ix2 (0 : Fin 1) j := funext fun a => Fin.ext (by
    match a with
    | ⟨0, _⟩ => show win0_16.index t (0 : Fin 2) * 1 + 1 * 0 = 0; rw [(stays16 t).1]
    | ⟨1, _⟩ => show win0_16.index t (1 : Fin 2) * 768 + 1 * j.val = j.val; rw [(stays16 t).2]; omega)
  have hv : (V m c main_v11 : S1x768.Idx → EReal) = shapeCast S1x768 (m ((c : Thread nD τ).loc main_arg16)) shapeCasts_S768_S1x768 := by
    dsimp only [V, hostOps0]; after_results; rfl
  show V m c main_v11 (((cfg0.win 16).blk t).view.emb (ix2 (0 : Fin 1) j)) = _
  rw [e, hv]
  exact shapeCast_a_1a_apply _ _ (0 : Fin 1) j

/-- The third batch norm's γ. -/
theorem gamma3_block (c : Dev nD) (t : Fin cfg0.N) (j : Fin 768) :
    iblk m c 17 t (ix2 (0 : Fin 1) j) = m ((c : Thread nD τ).loc main_arg17) (ix1 j) := by
  have e : ((cfg0.win 17).blk t).view.emb (ix2 (0 : Fin 1) j) = ix2 (0 : Fin 1) j := funext fun a => Fin.ext (by
    match a with
    | ⟨0, _⟩ => show win0_17.index t (0 : Fin 2) * 1 + 1 * 0 = 0; rw [(stays17 t).1]
    | ⟨1, _⟩ => show win0_17.index t (1 : Fin 2) * 768 + 1 * j.val = j.val; rw [(stays17 t).2]; omega)
  have hv : (V m c main_v12 : S1x768.Idx → EReal) = shapeCast S1x768 (m ((c : Thread nD τ).loc main_arg17)) shapeCasts_S768_S1x768 := by
    dsimp only [V, hostOps0]; after_results; rfl
  show V m c main_v12 (((cfg0.win 17).blk t).view.emb (ix2 (0 : Fin 1) j)) = _
  rw [e, hv]
  exact shapeCast_a_1a_apply _ _ (0 : Fin 1) j

/-- The third batch norm's β. -/
theorem beta3_block (c : Dev nD) (t : Fin cfg0.N) (j : Fin 768) :
    iblk m c 18 t (ix2 (0 : Fin 1) j) = m ((c : Thread nD τ).loc main_arg18) (ix1 j) := by
  have e : ((cfg0.win 18).blk t).view.emb (ix2 (0 : Fin 1) j) = ix2 (0 : Fin 1) j := funext fun a => Fin.ext (by
    match a with
    | ⟨0, _⟩ => show win0_18.index t (0 : Fin 2) * 1 + 1 * 0 = 0; rw [(stays18 t).1]
    | ⟨1, _⟩ => show win0_18.index t (1 : Fin 2) * 768 + 1 * j.val = j.val; rw [(stays18 t).2]; omega)
  have hv : (V m c main_v13 : S1x768.Idx → EReal) = shapeCast S1x768 (m ((c : Thread nD τ).loc main_arg18)) shapeCasts_S768_S1x768 := by
    dsimp only [V, hostOps0]; after_results; rfl
  show V m c main_v13 (((cfg0.win 18).blk t).view.emb (ix2 (0 : Fin 1) j)) = _
  rw [e, hv]
  exact shapeCast_a_1a_apply _ _ (0 : Fin 1) j

/-- The third batch norm's μ. -/
theorem mean3_block (c : Dev nD) (t : Fin cfg0.N) (j : Fin 768) :
    iblk m c 19 t (ix2 (0 : Fin 1) j) = m ((c : Thread nD τ).loc main_arg19) (ix1 j) := by
  have e : ((cfg0.win 19).blk t).view.emb (ix2 (0 : Fin 1) j) = ix2 (0 : Fin 1) j := funext fun a => Fin.ext (by
    match a with
    | ⟨0, _⟩ => show win0_19.index t (0 : Fin 2) * 1 + 1 * 0 = 0; rw [(stays19 t).1]
    | ⟨1, _⟩ => show win0_19.index t (1 : Fin 2) * 768 + 1 * j.val = j.val; rw [(stays19 t).2]; omega)
  have hv : (V m c main_v14 : S1x768.Idx → EReal) = shapeCast S1x768 (m ((c : Thread nD τ).loc main_arg19)) shapeCasts_S768_S1x768 := by
    dsimp only [V, hostOps0]; after_results; rfl
  show V m c main_v14 (((cfg0.win 19).blk t).view.emb (ix2 (0 : Fin 1) j)) = _
  rw [e, hv]
  exact shapeCast_a_1a_apply _ _ (0 : Fin 1) j

/-- The third batch norm's σ². -/
theorem var3_block (c : Dev nD) (t : Fin cfg0.N) (j : Fin 768) :
    iblk m c 20 t (ix2 (0 : Fin 1) j) = m ((c : Thread nD τ).loc main_arg20) (ix1 j) := by
  have e : ((cfg0.win 20).blk t).view.emb (ix2 (0 : Fin 1) j) = ix2 (0 : Fin 1) j := funext fun a => Fin.ext (by
    match a with
    | ⟨0, _⟩ => show win0_20.index t (0 : Fin 2) * 1 + 1 * 0 = 0; rw [(stays20 t).1]
    | ⟨1, _⟩ => show win0_20.index t (1 : Fin 2) * 768 + 1 * j.val = j.val; rw [(stays20 t).2]; omega)
  have hv : (V m c main_v15 : S1x768.Idx → EReal) = shapeCast S1x768 (m ((c : Thread nD τ).loc main_arg20)) shapeCasts_S768_S1x768 := by
    dsimp only [V, hostOps0]; after_results; rfl
  show V m c main_v15 (((cfg0.win 20).blk t).view.emb (ix2 (0 : Fin 1) j)) = _
  rw [e, hv]
  exact shapeCast_a_1a_apply _ _ (0 : Fin 1) j

/-! ## The parameters read from the blocks are the parameters read from the arguments -/

/-- Two layers with the same six components are one layer. -/
theorem layer_eq {k n : ℕ} (L L' : Layer k n) (hW : L.W = L'.W) (hb : L.b = L'.b) (hg : L.g = L'.g) (hbe : L.be = L'.be)
    (hmu : L.mu = L'.mu) (hvar : L.var = L'.var) : L = L' := by
  cases L; cases L'; simp only [Layer.mk.injEq]; exact ⟨hW, hb, hg, hbe, hmu, hvar⟩

theorem layer1_blocks (c : Dev nD) (t : Fin cfg0.N) :
    layerOfRows (k := 784) (n := 768) (iblk m c 1 t) (iblk m c 2 t) (iblk m c 9 t) (iblk m c 10 t) (iblk m c 11 t) (iblk m c 12 t)
      = layerOf (m ((c : Thread nD τ).loc main_arg1)) (m ((c : Thread nD τ).loc main_arg2)) (m ((c : Thread nD τ).loc main_arg9)) (m ((c : Thread nD τ).loc main_arg10)) (m ((c : Thread nD τ).loc main_arg11)) (m ((c : Thread nD τ).loc main_arg12)) :=
  layer_eq _ _ (funext fun j => funext fun l => weights1_block m c t j l) (funext fun j => bias1_block m c t j)
    (funext fun j => gamma1_block m c t j) (funext fun j => beta1_block m c t j)
    (funext fun j => mean1_block m c t j) (funext fun j => var1_block m c t j)

theorem layer2_blocks (c : Dev nD) (t : Fin cfg0.N) :
    layerOfRows (k := 768) (n := 768) (iblk m c 3 t) (iblk m c 4 t) (iblk m c 13 t) (iblk m c 14 t) (iblk m c 15 t) (iblk m c 16 t)
      = layerOf (m ((c : Thread nD τ).loc main_arg3)) (m ((c : Thread nD τ).loc main_arg4)) (m ((c : Thread nD τ).loc main_arg13)) (m ((c : Thread nD τ).loc main_arg14)) (m ((c : Thread nD τ).loc main_arg15)) (m ((c : Thread nD τ).loc main_arg16)) :=
  layer_eq _ _ (funext fun j => funext fun l => weights2_block m c t j l) (funext fun j => bias2_block m c t j)
    (funext fun j => gamma2_block m c t j) (funext fun j => beta2_block m c t j)
    (funext fun j => mean2_block m c t j) (funext fun j => var2_block m c t j)

theorem layer3_blocks (c : Dev nD) (t : Fin cfg0.N) :
    layerOfRows (k := 768) (n := 768) (iblk m c 5 t) (iblk m c 6 t) (iblk m c 17 t) (iblk m c 18 t) (iblk m c 19 t) (iblk m c 20 t)
      = layerOf (m ((c : Thread nD τ).loc main_arg5)) (m ((c : Thread nD τ).loc main_arg6)) (m ((c : Thread nD τ).loc main_arg17)) (m ((c : Thread nD τ).loc main_arg18)) (m ((c : Thread nD τ).loc main_arg19)) (m ((c : Thread nD τ).loc main_arg20)) :=
  layer_eq _ _ (funext fun j => funext fun l => weights3_block m c t j l) (funext fun j => bias3_block m c t j)
    (funext fun j => gamma3_block m c t j) (funext fun j => beta3_block m c t j)
    (funext fun j => mean3_block m c t j) (funext fun j => var3_block m c t j)

/-- The network depends on its layers, last weights, last bias and input row only through their values. -/
theorem net_congr {L1 L1' : Layer 784 768} {L2 L2' L3 L3' : Layer 768 768} {W4 W4' : Fin 10 → Fin 768 → EReal}
    {b4 b4' : Fin 10 → EReal} {x x' : Fin 784 → EReal} (h1 : L1 = L1') (h2 : L2 = L2') (h3 : L3 = L3') (hW : W4 = W4')
    (hb : b4 = b4') (hx : x = x') (q : Fin 10) : net L1 L2 L3 W4 b4 x q = net L1' L2' L3' W4' b4' x' q := by
  subst h1 h2 h3 hW hb hx; rfl

/-! ## From the blocks to the array -/

/-- The output block of point t, at (p, q), is entry (512 · t + p, q) of the output. -/
theorem output_emb (t : Fin cfg0.N) (p : Fin 512) (q : Fin 10) :
    ((cfg0.win 21).blk t).view.emb (ix2 p q) = ix2 (rowOf t p) q := funext fun a => Fin.ext (by
    match a with
    | ⟨0, _⟩ => show win0_21.index t (0 : Fin 2) * 512 + 1 * p.val = t.val * 512 + p.val; rw [(moves21 t).1]; omega
    | ⟨1, _⟩ => show win0_21.index t (1 : Fin 2) * 10 + 1 * q.val = q.val; rw [(moves21 t).2]; omega)

/-- What grid point t writes back is block t of the network of the argument arrays. -/
theorem flushed_eq (c : Dev nD) (t : Fin cfg0.N) :
    (dats m 0 c).flushed 21 t = ((cfg0.win 21).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  rw [Cert.KernelIdeal.Value.flushed21]
  funext y
  obtain ⟨p, q, rfl⟩ : ∃ (p : Fin 512) (q : Fin 10), y = ix2 p q := ⟨y 0, y 1, eq_ix2 y⟩
  show out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 p q)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (((cfg0.win 21).blk t).view.emb (ix2 p q))
  rw [output_emb]
  refine (stored_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p q).trans ?_
  exact net_congr (layer1_blocks m c t) (layer2_blocks m c t) (layer3_blocks m c t)
    (funext fun q => funext fun l => weights4_block m c t q l) (funext fun q => bias4_block m c t q)
    (funext fun k => input_block m c t p k) q

/-- An entry of the output is in point t's block iff each coordinate is in the block's range. -/
theorem mem_output_block (t : Fin cfg0.N) (i : S16384x10.Idx) :
    i ∈ ((cfg0.win 21).blk t).view.set ↔ ∀ a : Fin 2, win0_21.index t a * S512x10.size a ≤ (i a).val ∧ (i a).val < win0_21.index t a * S512x10.size a + S512x10.size a := by
  show i ∈ ((View.whole main_v16).slice (win0_21.rect t)).set ↔ _
  rw [View.set_slice_whole, Rect.mem_set_unit]
  exact Iff.rfl

/-- Every one of the 32 row blocks is some point's. -/
theorem every_block : ∀ b : Fin 32, ∃ t : Fin cfg0.N, t.val = b.val :=
  (by decide +kernel : ∀ b : Fin 32, ∃ t : Fin grid0.N, t.val = b.val)

/-- The 32 blocks of 512 rows tile the 16384 rows: entry (r, q) is in the block of point r / 512. -/
theorem output_cover (i : S16384x10.Idx) : ∃ t : Fin cfg0.N, (cfg0.win 21).flush t = true ∧ i ∈ ((cfg0.win 21).blk t).view.set := by
  have hi0 : (i 0).val < 16384 := (i 0).isLt
  have hi1 : (i 1).val < 10 := (i 1).isLt
  obtain ⟨t, ht⟩ := every_block ⟨(i 0).val / 512, by omega⟩
  have ht' : t.val = (i 0).val / 512 := ht
  refine ⟨t, flush0_21 t, ?_⟩
  rw [mem_output_block]
  intro a
  match a with
  | ⟨0, _⟩ => show win0_21.index t (0 : Fin 2) * 512 ≤ (i 0).val ∧ (i 0).val < win0_21.index t (0 : Fin 2) * 512 + 512; rw [(moves21 t).1]; omega
  | ⟨1, _⟩ => show win0_21.index t (1 : Fin 2) * 10 ≤ (i 1).val ∧ (i 1).val < win0_21.index t (1 : Fin 2) * 10 + 10; rw [(moves21 t).2]; omega

/-- After the run the output array is the network of the argument arrays, entry by entry. -/
theorem final (c : Dev nD) :
    (dats m 0 c).arrAt 21 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (dats m 0 c).arrAt_eq_of_cover 21 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) (fun t _ => flushed_eq m c t) output_cover

/-- The kernel's run: the result array at the network of the arguments, the arguments unchanged. -/
theorem run : θ_run defs (onTc (τ := τ) (main (F := Ideal))) ⟨m, fun _ => 0, ρ⟩ fun r => ∀ c : Dev nD,
      r.2.mem ((c : Thread nD τ).loc main_v16) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final m c), (h c).2⟩) (Cert.KernelIdeal.Value.run_blocks m ρ)

end Cert.KernelValue

end
-- ==== Proof.RefHidden.lean ====
/-
  The reference's three hidden layers, read at one entry.

  Each hidden layer of the reference is a chain of pointwise operations around one matrix product. Read at the
  entry (r, j), the chain is: the sign matrix of the weights (written t + (sign t − t), which is sign t for a real
  t), the product of the input row with column j of its transpose, the bias at j, the mean at j subtracted, the
  scale γ_j · (σ²_j + ε)^(−1/2), the shift β_j, and the clamp to [−1, 1]. The second and third layers read the
  signs of the layer before, written a + (sign a − a) with a a clamped value, hence real. Every broadcast of a
  vector along the rows reads the vector at the column j; the rest is the definition of the layer.
-/
import proofs.«177683_j45140106281104_1_alg».proof.Proof.RefRead
import proofs.«177683_j45140106281104_1_alg».proof.Proof.BinNet

noncomputable section

open scoped BigOperators

namespace Cert.RefNet

open Cert.ReferenceIdeal Cert.ReferenceIdeal.ReadP Idealize.ShloMosaic Idealize.ShloMosaic.ValueIdx Cert.BinNet

/-! ## Layer 1 -/

/-- The reference writes the sign of a weight t as t + (sign t − t); for a real t this is sign t. -/
theorem sign_w1 (x1 : FVec Ideal S768x784 .f32) (h1 : AllReal x1) (j : Fin 768) (k : Fin 784) :
    val_main_v5 (F := Ideal) x1 (ix2 j k) = bin (x1 (ix2 j k)) := by
  have h : val_main_v5 (F := Ideal) x1 (ix2 j k)
      = x1 (ix2 j k) + (bin (x1 (ix2 j k)) - x1 (ix2 j k)) := by
    rw [val_main_v5_apply, val_main_v4_apply, val_main_v3_apply, val_main_v2_apply, val_main_v1_apply,
      val_main_v0_apply, val_main_call0_v0_apply, val_main_call0_v1_apply]
    rfl
  rw [h, bin_ste (h1 _)]

/-- The product of row r of the input with the sign matrix, at column j. -/
theorem dot1 (x0 : FVec Ideal S16384x784 .f32) (x1 : FVec Ideal S768x784 .f32) (h1 : AllReal x1)
    (r : Fin 16384) (j : Fin 768) :
    val_main_v7 (F := Ideal) x0 x1 (ix2 r j) = ∑ k : Fin 784, x0 (ix2 r k) * bin (x1 (ix2 j k)) := by
  rw [val_main_v7_apply]
  refine Finset.sum_congr rfl fun k _ => ?_
  have el : lidx_main_v7 (ix2 r j) k = ix2 r k :=
    funext fun a => Fin.ext (by match a with | ⟨0, _⟩ => rfl | ⟨1, _⟩ => rfl)
  have er : idx_main_v6 (ridx_main_v7 (ix2 r j) k) = ix2 j k :=
    funext fun a => Fin.ext (by match a with | ⟨0, _⟩ => rfl | ⟨1, _⟩ => rfl)
  rw [val_main_v6_apply, el, er, sign_w1 x1 h1]

/-- A vector broadcast along the rows reads, at (r, j), the vector at j: the bias. -/
theorem bias1 (x2 : FVec Ideal S768 .f32) (r : Fin 16384) (j : Fin 768) :
    val_main_v9 (F := Ideal) x2 (ix2 r j) = x2 (ix1 j) := by
  rw [val_main_v9_apply, val_main_v8_apply]
  exact congrArg x2 (funext fun a => Fin.ext (by match a with | ⟨0, _⟩ => rfl))

/-- The mean μ at (r, j). -/
theorem mean1 (x11 : FVec Ideal S768 .f32) (r : Fin 16384) (j : Fin 768) :
    val_main_v12 (F := Ideal) x11 (ix2 r j) = x11 (ix1 j) := by
  rw [val_main_v12_apply, val_main_v11_apply]
  exact congrArg x11 (funext fun a => Fin.ext (by match a with | ⟨0, _⟩ => rfl))

/-- The shift β at (r, j). -/
theorem shift1 (x10 : FVec Ideal S768 .f32) (r : Fin 16384) (j : Fin 768) :
    val_main_v22 (F := Ideal) x10 (ix2 r j) = x10 (ix1 j) := by
  rw [val_main_v22_apply, val_main_v21_apply]
  exact congrArg x10 (funext fun a => Fin.ext (by match a with | ⟨0, _⟩ => rfl))

/-- The scale γ · (σ² + ε)^(−1/2) at (r, j). -/
theorem scale1 (x9 x12 : FVec Ideal S768 .f32) (r : Fin 16384) (j : Fin 768) :
    val_main_v19 (F := Ideal) x9 x12 (ix2 r j) = x9 (ix1 j) * Ideal.rsqrt (x12 (ix1 j) + epsW) := by
  have e : idx_main_v18 (idx_main_v19 (ix2 r j)) = ix1 j :=
    funext fun a => Fin.ext (by match a with | ⟨0, _⟩ => rfl)
  rw [val_main_v19_apply, val_main_v18_apply, e, val_main_v17_apply, val_main_v16_apply, val_main_v15_apply,
    val_main_v14_apply]
  rfl

/-- The first hidden layer's output at (r, j): the layer of the arguments on row r of the input. -/
theorem hidden1 (x0 : FVec Ideal S16384x784 .f32) (x1 : FVec Ideal S768x784 .f32) (x2 x9 x10 x11 x12 : FVec Ideal S768 .f32)
    (h1 : AllReal x1) (r : Fin 16384) (j : Fin 768) :
    val_main_v24 (F := Ideal) x0 x1 x2 x9 x10 x11 x12 (ix2 r j)
      = (layerOf x1 x2 x9 x10 x11 x12).act (fun k => x0 (ix2 r k)) j := by
  rw [val_main_v24_apply, val_main_call1_v2_apply, val_main_v23_apply, val_main_v20_apply, val_main_v13_apply,
    val_main_v10_apply, dot1 x0 x1 h1, bias1, mean1, shift1, scale1, val_main_call1_v4_apply, val_main_call1_v1_apply]
  rfl

/-! ## Layer 2 -/

/-- The reference writes the sign of an activation a as a + (sign a − a); a clamped value is real, so this is sign a. -/
theorem sign_act1 (x0 : FVec Ideal S16384x784 .f32) (x1 : FVec Ideal S768x784 .f32) (x2 x9 x10 x11 x12 : FVec Ideal S768 .f32)
    (h1 : AllReal x1) (r : Fin 16384) (l : Fin 768) :
    val_main_v30 (F := Ideal) x0 x1 x2 x9 x10 x11 x12 (ix2 r l) = bin ((layerOf x1 x2 x9 x10 x11 x12).act (fun k => x0 (ix2 r k)) l) := by
  have h : val_main_v30 (F := Ideal) x0 x1 x2 x9 x10 x11 x12 (ix2 r l)
      = val_main_v24 (F := Ideal) x0 x1 x2 x9 x10 x11 x12 (ix2 r l)
        + (bin (val_main_v24 (F := Ideal) x0 x1 x2 x9 x10 x11 x12 (ix2 r l)) - val_main_v24 (F := Ideal) x0 x1 x2 x9 x10 x11 x12 (ix2 r l)) := by
    rw [val_main_v30_apply, val_main_v29_apply, val_main_v28_apply, val_main_v27_apply, val_main_v26_apply,
      val_main_v25_apply, val_main_call2_v0_apply, val_main_call2_v1_apply]
    rfl
  rw [h, hidden1 x0 x1 x2 x9 x10 x11 x12 h1, bin_ste (Layer.act_real _ _ _)]

/-- The sign of a second-layer weight. -/
theorem sign_w2 (x3 : FVec Ideal S768x768 .f32) (h3 : AllReal x3) (j k : Fin 768) :
    val_main_v36 (F := Ideal) x3 (ix2 j k) = bin (x3 (ix2 j k)) := by
  have h : val_main_v36 (F := Ideal) x3 (ix2 j k)
      = x3 (ix2 j k) + (bin (x3 (ix2 j k)) - x3 (ix2 j k)) := by
    rw [val_main_v36_apply, val_main_v35_apply, val_main_v34_apply, val_main_v33_apply, val_main_v32_apply,
      val_main_v31_apply, val_main_call3_v0_apply, val_main_call3_v1_apply]
    rfl
  rw [h, bin_ste (h3 _)]

/-- The product of the signs of the first layer's row with the second sign matrix, at column j. -/
theorem dot2 (x0 : FVec Ideal S16384x784 .f32) (x1 : FVec Ideal S768x784 .f32) (x2 x9 x10 x11 x12 : FVec Ideal S768 .f32)
    (x3 : FVec Ideal S768x768 .f32) (h1 : AllReal x1) (h3 : AllReal x3) (r : Fin 16384) (j : Fin 768) :
    val_main_v38 (F := Ideal) x0 x1 x2 x3 x9 x10 x11 x12 (ix2 r j)
      = ∑ k : Fin 768, bin ((layerOf x1 x2 x9 x10 x11 x12).act (fun k => x0 (ix2 r k)) k) * bin (x3 (ix2 j k)) := by
  rw [val_main_v38_apply]
  refine Finset.sum_congr rfl fun k _ => ?_
  have el : lidx_main_v38 (ix2 r j) k = ix2 r k :=
    funext fun a => Fin.ext (by match a with | ⟨0, _⟩ => rfl | ⟨1, _⟩ => rfl)
  have er : idx_main_v37 (ridx_main_v38 (ix2 r j) k) = ix2 j k :=
    funext fun a => Fin.ext (by match a with | ⟨0, _⟩ => rfl | ⟨1, _⟩ => rfl)
  rw [val_main_v37_apply, el, er, sign_w2 x3 h3, sign_act1 x0 x1 x2 x9 x10 x11 x12 h1]

/-- The second layer's bias at (r, j). -/
theorem bias2 (x4 : FVec Ideal S768 .f32) (r : Fin 16384) (j : Fin 768) :
    val_main_v40 (F := Ideal) x4 (ix2 r j) = x4 (ix1 j) := by
  rw [val_main_v40_apply, val_main_v39_apply]
  exact congrArg x4 (funext fun a => Fin.ext (by match a with | ⟨0, _⟩ => rfl))

/-- The second layer's mean μ at (r, j). -/
theorem mean2 (x15 : FVec Ideal S768 .f32) (r : Fin 16384) (j : Fin 768) :
    val_main_v43 (F := Ideal) x15 (ix2 r j) = x15 (ix1 j) := by
  rw [val_main_v43_apply, val_main_v42_apply]
  exact congrArg x15 (funext fun a => Fin.ext (by match a with | ⟨0, _⟩ => rfl))

/-- The second layer's shift β at (r, j). -/
theorem shift2 (x14 : FVec Ideal S768 .f32) (r : Fin 16384) (j : Fin 768) :
    val_main_v53 (F := Ideal) x14 (ix2 r j) = x14 (ix1 j) := by
  rw [val_main_v53_apply, val_main_v52_apply]
  exact congrArg x14 (funext fun a => Fin.ext (by match a with | ⟨0, _⟩ => rfl))

/-- The second layer's scale γ · (σ² + ε)^(−1/2) at (r, j). -/
theorem scale2 (x13 x16 : FVec Ideal S768 .f32) (r : Fin 16384) (j : Fin 768) :
    val_main_v50 (F := Ideal) x13 x16 (ix2 r j) = x13 (ix1 j) * Ideal.rsqrt (x16 (ix1 j) + epsW) := by
  have e : idx_main_v49 (idx_main_v50 (ix2 r j)) = ix1 j :=
    funext fun a => Fin.ext (by match a with | ⟨0, _⟩ => rfl)
  rw [val_main_v50_apply, val_main_v49_apply, e, val_main_v48_apply, val_main_v47_apply, val_main_v46_apply,
    val_main_v45_apply]
  rfl

/-- The second hidden layer's output at (r, j): the layer on the signs of the first layer's row. -/
theorem hidden2 (x0 : FVec Ideal S16384x784 .f32) (x1 : FVec Ideal S768x784 .f32) (x2 : FVec Ideal S768 .f32)
    (x3 : FVec Ideal S768x768 .f32) (x4 x9 x10 x11 x12 x13 x14 x15 x16 : FVec Ideal S768 .f32)
    (h1 : AllReal x1) (h3 : AllReal x3) (r : Fin 16384) (j : Fin 768) :
    val_main_v55 (F := Ideal) x0 x1 x2 x3 x4 x9 x10 x11 x12 x13 x14 x15 x16 (ix2 r j)
      = (layerOf x3 x4 x13 x14 x15 x16).act (fun l => bin ((layerOf x1 x2 x9 x10 x11 x12).act (fun k => x0 (ix2 r k)) l)) j := by
  rw [val_main_v55_apply, val_main_call4_v2_apply, val_main_v54_apply, val_main_v51_apply, val_main_v44_apply,
    val_main_v41_apply, dot2 x0 x1 x2 x9 x10 x11 x12 x3 h1 h3, bias2, mean2, shift2, scale2, val_main_call4_v4_apply,
    val_main_call4_v1_apply]
  rfl

/-! ## Layer 3 -/

/-- The sign of a second-layer activation, written by the reference as a + (sign a − a). -/
theorem sign_act2 (x0 : FVec Ideal S16384x784 .f32) (x1 : FVec Ideal S768x784 .f32) (x2 : FVec Ideal S768 .f32)
    (x3 : FVec Ideal S768x768 .f32) (x4 x9 x10 x11 x12 x13 x14 x15 x16 : FVec Ideal S768 .f32)
    (h1 : AllReal x1) (h3 : AllReal x3) (r : Fin 16384) (l : Fin 768) :
    val_main_v61 (F := Ideal) x0 x1 x2 x3 x4 x9 x10 x11 x12 x13 x14 x15 x16 (ix2 r l)
      = bin ((layerOf x3 x4 x13 x14 x15 x16).act (fun l => bin ((layerOf x1 x2 x9 x10 x11 x12).act (fun k => x0 (ix2 r k)) l)) l) := by
  have h : val_main_v61 (F := Ideal) x0 x1 x2 x3 x4 x9 x10 x11 x12 x13 x14 x15 x16 (ix2 r l)
      = val_main_v55 (F := Ideal) x0 x1 x2 x3 x4 x9 x10 x11 x12 x13 x14 x15 x16 (ix2 r l)
        + (bin (val_main_v55 (F := Ideal) x0 x1 x2 x3 x4 x9 x10 x11 x12 x13 x14 x15 x16 (ix2 r l))
          - val_main_v55 (F := Ideal) x0 x1 x2 x3 x4 x9 x10 x11 x12 x13 x14 x15 x16 (ix2 r l)) := by
    rw [val_main_v61_apply, val_main_v60_apply, val_main_v59_apply, val_main_v58_apply, val_main_v57_apply,
      val_main_v56_apply, val_main_call5_v0_apply, val_main_call5_v1_apply]
    rfl
  rw [h, hidden2 x0 x1 x2 x3 x4 x9 x10 x11 x12 x13 x14 x15 x16 h1 h3, bin_ste (Layer.act_real _ _ _)]

/-- The sign of a third-layer weight. -/
theorem sign_w3 (x5 : FVec Ideal S768x768 .f32) (h5 : AllReal x5) (j k : Fin 768) :
    val_main_v67 (F := Ideal) x5 (ix2 j k) = bin (x5 (ix2 j k)) := by
  have h : val_main_v67 (F := Ideal) x5 (ix2 j k)
      = x5 (ix2 j k) + (bin (x5 (ix2 j k)) - x5 (ix2 j k)) := by
    rw [val_main_v67_apply, val_main_v66_apply, val_main_v65_apply, val_main_v64_apply, val_main_v63_apply,
      val_main_v62_apply, val_main_call6_v0_apply, val_main_call6_v1_apply]
    rfl
  rw [h, bin_ste (h5 _)]

/-- The product of the signs of the second layer's row with the third sign matrix, at column j. -/
theorem dot3 (x0 : FVec Ideal S16384x784 .f32) (x1 : FVec Ideal S768x784 .f32) (x2 : FVec Ideal S768 .f32)
    (x3 : FVec Ideal S768x768 .f32) (x4 x9 x10 x11 x12 x13 x14 x15 x16 : FVec Ideal S768 .f32)
    (x5 : FVec Ideal S768x768 .f32) (h1 : AllReal x1) (h3 : AllReal x3) (h5 : AllReal x5) (r : Fin 16384) (j : Fin 768) :
    val_main_v69 (F := Ideal) x0 x1 x2 x3 x4 x5 x9 x10 x11 x12 x13 x14 x15 x16 (ix2 r j)
      = ∑ k : Fin 768, bin ((layerOf x3 x4 x13 x14 x15 x16).act (fun l => bin ((layerOf x1 x2 x9 x10 x11 x12).act (fun k => x0 (ix2 r k)) l)) k) * bin (x5 (ix2 j k)) := by
  rw [val_main_v69_apply]
  refine Finset.sum_congr rfl fun k _ => ?_
  have el : lidx_main_v69 (ix2 r j) k = ix2 r k :=
    funext fun a => Fin.ext (by match a with | ⟨0, _⟩ => rfl | ⟨1, _⟩ => rfl)
  have er : idx_main_v68 (ridx_main_v69 (ix2 r j) k) = ix2 j k :=
    funext fun a => Fin.ext (by match a with | ⟨0, _⟩ => rfl | ⟨1, _⟩ => rfl)
  rw [val_main_v68_apply, el, er, sign_w3 x5 h5, sign_act2 x0 x1 x2 x3 x4 x9 x10 x11 x12 x13 x14 x15 x16 h1 h3]

/-- The third layer's bias at (r, j). -/
theorem bias3 (x6 : FVec Ideal S768 .f32) (r : Fin 16384) (j : Fin 768) :
    val_main_v71 (F := Ideal) x6 (ix2 r j) = x6 (ix1 j) := by
  rw [val_main_v71_apply, val_main_v70_apply]
  exact congrArg x6 (funext fun a => Fin.ext (by match a with | ⟨0, _⟩ => rfl))

/-- The third layer's mean μ at (r, j). -/
theorem mean3 (x19 : FVec Ideal S768 .f32) (r : Fin 16384) (j : Fin 768) :
    val_main_v74 (F := Ideal) x19 (ix2 r j) = x19 (ix1 j) := by
  rw [val_main_v74_apply, val_main_v73_apply]
  exact congrArg x19 (funext fun a => Fin.ext (by match a with | ⟨0, _⟩ => rfl))

/-- The third layer's shift β at (r, j). -/
theorem shift3 (x18 : FVec Ideal S768 .f32) (r : Fin 16384) (j : Fin 768) :
    val_main_v84 (F := Ideal) x18 (ix2 r j) = x18 (ix1 j) := by
  rw [val_main_v84_apply, val_main_v83_apply]
  exact congrArg x18 (funext fun a => Fin.ext (by match a with | ⟨0, _⟩ => rfl))

/-- The third layer's scale γ · (σ² + ε)^(−1/2) at (r, j). -/
theorem scale3 (x17 x20 : FVec Ideal S768 .f32) (r : Fin 16384) (j : Fin 768) :
    val_main_v81 (F := Ideal) x17 x20 (ix2 r j) = x17 (ix1 j) * Ideal.rsqrt (x20 (ix1 j) + epsW) := by
  have e : idx_main_v80 (idx_main_v81 (ix2 r j)) = ix1 j :=
    funext fun a => Fin.ext (by match a with | ⟨0, _⟩ => rfl)
  rw [val_main_v81_apply, val_main_v80_apply, e, val_main_v79_apply, val_main_v78_apply, val_main_v77_apply,
    val_main_v76_apply]
  rfl

/-- The third hidden layer's output at (r, j): the layer on the signs of the second layer's row. -/
theorem hidden3 (x0 : FVec Ideal S16384x784 .f32) (x1 : FVec Ideal S768x784 .f32) (x2 : FVec Ideal S768 .f32)
    (x3 : FVec Ideal S768x768 .f32) (x4 : FVec Ideal S768 .f32) (x5 : FVec Ideal S768x768 .f32)
    (x6 x9 x10 x11 x12 x13 x14 x15 x16 x17 x18 x19 x20 : FVec Ideal S768 .f32)
    (h1 : AllReal x1) (h3 : AllReal x3) (h5 : AllReal x5) (r : Fin 16384) (j : Fin 768) :
    val_main_v86 (F := Ideal) x0 x1 x2 x3 x4 x5 x6 x9 x10 x11 x12 x13 x14 x15 x16 x17 x18 x19 x20 (ix2 r j)
      = (layerOf x5 x6 x17 x18 x19 x20).act (fun l => bin ((layerOf x3 x4 x13 x14 x15 x16).act (fun l => bin ((layerOf x1 x2 x9 x10 x11 x12).act (fun k => x0 (ix2 r k)) l)) l)) j := by
  rw [val_main_v86_apply, val_main_call7_v2_apply, val_main_v85_apply, val_main_v82_apply, val_main_v75_apply,
    val_main_v72_apply, dot3 x0 x1 x2 x3 x4 x9 x10 x11 x12 x13 x14 x15 x16 x5 h1 h3 h5, bias3, mean3, shift3, scale3, val_main_call7_v4_apply,
    val_main_call7_v1_apply]
  rfl

end Cert.RefNet

end
-- ==== Proof.RefTail.lean ====
/-
  The reference's last layer and log-softmax, and the whole reference as the network of its arguments.

  After the third hidden layer the reference multiplies each row by the transpose of W4 and adds b4: entry (r, c) of
  these logits is the sum over l of the hidden entry (r, l) times W4 (c, l), plus b4 c. Its log-softmax takes each
  row's maximum as a fold of max from −∞ over the ten classes (and once more the maximum of −∞ with that, which
  changes nothing), subtracts it from the row, and subtracts the logarithm of the row's sum of exponentials, the sum
  taken from 0. Entry by entry this is the logarithm of the softmax of the row of logits, and with the hidden entries
  read as the third layer of the network, the whole result is the network.
-/
import proofs.«177683_j45140106281104_1_alg».proof.Proof.RefHidden
import proofs.«177683_j45140106281104_1_alg».proof.Proof.LibKeepdims

noncomputable section

open scoped BigOperators

namespace Cert.RefNet

open Cert.ReferenceIdeal Cert.ReferenceIdeal.ReadP Idealize.ShloMosaic Idealize.ShloMosaic.ValueIdx Cert.BinNet

namespace Tail

open Cert.ReferenceIdeal.Gen

variable (x0 : FVec Ideal S16384x784 .f32) (x1 : FVec Ideal S768x784 .f32) (x2 : FVec Ideal S768 .f32)
    (x3 : FVec Ideal S768x768 .f32) (x4 : FVec Ideal S768 .f32) (x5 : FVec Ideal S768x768 .f32) (x6 : FVec Ideal S768 .f32)
    (x7 : FVec Ideal S10x768 .f32) (x8 : FVec Ideal S10 .f32)
    (x9 x10 x11 x12 x13 x14 x15 x16 x17 x18 x19 x20 : FVec Ideal S768 .f32)

/-- The logits at (r, c): row r of the third hidden layer's output times row c of W4, plus b4 c. -/
theorem logits (r : Fin 16384) (c : Fin 10) :
    val_main_v91 (F := Ideal) x0 x1 x2 x3 x4 x5 x6 x7 x8 x9 x10 x11 x12 x13 x14 x15 x16 x17 x18 x19 x20 (ix2 r c)
      = dense (fun l => val_main_v86 (F := Ideal) x0 x1 x2 x3 x4 x5 x6 x9 x10 x11 x12 x13 x14 x15 x16 x17 x18 x19 x20 (ix2 r l))
          (fun c l => x7 (ix2 c l)) (fun c => x8 (ix1 c)) c := by
  rw [val_main_v91_apply, val_main_v88_apply, val_main_v90_apply, val_main_v89_apply]
  unfold dense
  refine congrArg₂ (· + ·) (Finset.sum_congr rfl fun k _ => ?_) ?_
  · rw [val_main_v87_apply]
    refine congrArg₂ (· * ·) (congrArg _ ?_) (congrArg x7 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x8 (funext fun a => Fin.ext (by match a with | ⟨0, _⟩ => rfl))

/-- The reduction with a maximum body from −∞ over the classes, at row r of any matrix z of logits, is the maximum
    of the ten entries of that row, folded from −∞. -/
theorem hostMax_row (z : FVec Ideal S16384x10 .f32) (r : Fin 16384) :
    Host.reduce FloatOps.maximumf z (val_main_call8_cst (F := Ideal)) reducesTo_S16384x10_S16384_d1 h_S_ (ix1 r)
      = rowMax (fun c => z (ix2 r c)) := by
  have hred : S16384x10.Reduces [1] S16384 := by decide
  rw [Host.reduce_eq_fold_single FloatOps.maximumf z _ reducesTo_S16384x10_S16384_d1 hred h_S_ (ix1 r),
    val_main_call8_cst_apply, Ideal.ofBits_def, LibKeepdims.ofBits_neg_inf]
  unfold rowMax
  have hf : (z ∘ hred.lift (ix1 r)) = fun k : Fin 10 => z (ix2 r k) :=
    funext fun k => congrArg z (LibKeepdims.lift_row hred r k)
  exact congrArg (fun g : Fin 10 → EReal => (Finset.univ : Finset (Fin 10)).fold max ⊥ g) hf

/-- Row r's maximum as the reference takes it (the maximum of −∞ with the reduction) is the maximum of the ten
    logits of that row, folded from −∞: max ⊥ m = m. -/
theorem rowMaximum (r : Fin 16384) :
    val_main_call8_v2 (F := Ideal) x0 x1 x2 x3 x4 x5 x6 x7 x8 x9 x10 x11 x12 x13 x14 x15 x16 x17 x18 x19 x20 (ix1 r)
      = rowMax (fun c => val_main_v91 (F := Ideal) x0 x1 x2 x3 x4 x5 x6 x7 x8 x9 x10 x11 x12 x13 x14 x15 x16 x17 x18 x19 x20 (ix2 r c)) := by
  rw [val_main_call8_v2_apply, val_main_call8_v1_apply, val_main_call8_cst_0_apply]
  unfold val_main_call8_v0
  generalize val_main_v91 (F := Ideal) x0 x1 x2 x3 x4 x5 x6 x7 x8 x9 x10 x11 x12 x13 x14 x15 x16 x17 x18 x19 x20 = z
  rw [hostMax_row, Ideal.ofBits_def, LibKeepdims.ofBits_neg_inf, Ideal.maximumf_def, max_bot_left]

/-- A logit minus its row's maximum, as the reference computes it. -/
theorem shifted (r : Fin 16384) (c : Fin 10) :
    val_main_call8_v5 (F := Ideal) x0 x1 x2 x3 x4 x5 x6 x7 x8 x9 x10 x11 x12 x13 x14 x15 x16 x17 x18 x19 x20 (ix2 r c)
      = val_main_v91 (F := Ideal) x0 x1 x2 x3 x4 x5 x6 x7 x8 x9 x10 x11 x12 x13 x14 x15 x16 x17 x18 x19 x20 (ix2 r c)
        - rowMax (fun c => val_main_v91 (F := Ideal) x0 x1 x2 x3 x4 x5 x6 x7 x8 x9 x10 x11 x12 x13 x14 x15 x16 x17 x18 x19 x20 (ix2 r c)) := by
  have hi : idx_main_call8_v3 (idx_main_call8_v4 (ix2 r c)) = ix1 r :=
    funext fun a => Fin.ext (by match a with | ⟨0, _⟩ => rfl)
  rw [val_main_call8_v5_apply, val_main_call8_v4_apply, val_main_call8_v3_apply, hi, rowMaximum]
  rfl

/-- The logarithm of row r's sum of exponentials of the shifted logits, as the reference computes it at (r, c). -/
theorem logSumExp (r : Fin 16384) (c : Fin 10) :
    val_main_call8_v10 (F := Ideal) x0 x1 x2 x3 x4 x5 x6 x7 x8 x9 x10 x11 x12 x13 x14 x15 x16 x17 x18 x19 x20 (ix2 r c)
      = Ideal.log (∑ c' : Fin 10, Ideal.exp
          (val_main_v91 (F := Ideal) x0 x1 x2 x3 x4 x5 x6 x7 x8 x9 x10 x11 x12 x13 x14 x15 x16 x17 x18 x19 x20 (ix2 r c')
            - rowMax (fun c => val_main_v91 (F := Ideal) x0 x1 x2 x3 x4 x5 x6 x7 x8 x9 x10 x11 x12 x13 x14 x15 x16 x17 x18 x19 x20 (ix2 r c)))) := by
  have hi : idx_main_call8_v8 (idx_main_call8_v10 (ix2 r c)) = ix1 r :=
    funext fun a => Fin.ext (by match a with | ⟨0, _⟩ => rfl)
  rw [val_main_call8_v10_apply, val_main_call8_v9_apply, val_main_call8_v8_apply, hi, val_main_call8_v7_apply,
    val_main_call8_cst_1_apply, Ideal.ofBits_def, Ideal.ofBits_zero_f32, zero_add, Ideal.hostUnary_log_def]
  refine congrArg Ideal.log (Finset.sum_congr rfl fun k _ => ?_)
  have hk : idx_main_call8_v7 (ix1 r) k = ix2 r k :=
    funext fun a => Fin.ext (by match a with | ⟨0, _⟩ => rfl | ⟨1, _⟩ => rfl)
  rw [val_main_call8_v6_apply, hk, shifted, Ideal.hostUnary_exp_def]

end Tail

/-- The reference's result, as a function of its arguments, is the network: entry by entry, under real weights. -/
theorem ref_eq (x0 : FVec Ideal S16384x784 .f32) (x1 : FVec Ideal S768x784 .f32) (x2 : FVec Ideal S768 .f32)
    (x3 : FVec Ideal S768x768 .f32) (x4 : FVec Ideal S768 .f32) (x5 : FVec Ideal S768x768 .f32) (x6 : FVec Ideal S768 .f32)
    (x7 : FVec Ideal S10x768 .f32) (x8 : FVec Ideal S10 .f32)
    (x9 x10 x11 x12 x13 x14 x15 x16 x17 x18 x19 x20 : FVec Ideal S768 .f32)
    (h1 : AllReal x1) (h3 : AllReal x3) (h5 : AllReal x5) :
    val_main_v92 (F := Ideal) x0 x1 x2 x3 x4 x5 x6 x7 x8 x9 x10 x11 x12 x13 x14 x15 x16 x17 x18 x19 x20 = G x0 x1 x2 x3 x4 x5 x6 x7 x8 x9 x10 x11 x12 x13 x14 x15 x16 x17 x18 x19 x20 := by
  funext i
  obtain ⟨r, c, rfl⟩ : ∃ (r : Fin 16384) (c : Fin 10), i = ix2 r c := ⟨i 0, i 1, eq_ix2 i⟩
  have hz : (fun c => val_main_v91 (F := Ideal) x0 x1 x2 x3 x4 x5 x6 x7 x8 x9 x10 x11 x12 x13 x14 x15 x16 x17 x18 x19 x20 (ix2 r c))
      = dense ((layerOf x5 x6 x17 x18 x19 x20).act fun l => bin ((layerOf x3 x4 x13 x14 x15 x16).act
          (fun l => bin ((layerOf x1 x2 x9 x10 x11 x12).act (fun k => x0 (ix2 r k)) l)) l))
          (fun c l => x7 (ix2 c l)) (fun c => x8 (ix1 c)) := by
    funext c
    rw [Tail.logits]
    exact congrArg (fun v => dense v (fun c l => x7 (ix2 c l)) (fun c => x8 (ix1 c)) c)
      (funext fun l => hidden3 x0 x1 x2 x3 x4 x5 x6 x9 x10 x11 x12 x13 x14 x15 x16 x17 x18 x19 x20 h1 h3 h5 r l)
  rw [val_main_v92_apply, Tail.shifted, Tail.logSumExp, Ideal.subf_def]
  show _ = logSoftmax _ c
  unfold logSoftmax
  rw [← hz]

end Cert.RefNet

end
-- ==== Proof.Finite.lean ====
/-
  The precondition makes every weight entry a real number.

  The precondition is one conjunction of 21 truth values, one per argument array a, in the arguments' order:
  "every entry x of a has |x| < +∞", where |x| = max x (−x) on the extended reals and the bound is the
  word of +∞. The conjunction is nested to the left, ((c₀ ∧ c₁) ∧ c₂) ∧ … ∧ c₂₀, so the conjunct of argument k is
  reached by taking the left part 20 − k times and then the right part (for k = 0, the left part 20 times).

  One conjunct decodes entry by entry. An "all" over an array of truth values that is true is true at every index.
  At an index the truth value is the comparison max x (−x) < ⊤. For x = ⊤ the left side is ⊤, for x = ⊥ it is
  max ⊥ ⊤ = ⊤ again, and ⊤ < ⊤ is false; so x is neither infinity, that is, x is a real number.
-/
import proofs.«177683_j45140106281104_1_alg».proof.Defs
import proofs.«177683_j45140106281104_1_alg».proof.Proof.BinNet
import Idealize.ShloMosaic.Lib.ReduceAll

noncomputable section

namespace Cert.Finite

open Idealize.ShloMosaic Idealize.SL.Sem Cert.BinNet

/-- The shape with no axes has exactly one index. -/
instance : Subsingleton Cert.Pre_finite_inputs.S_.Idx := ⟨fun a b => funext fun d => d.elim0⟩

/-- The word 0x7F800000 denotes +∞. -/
theorem infW_eq : Ideal.ofBits .f32 0x7F800000#32 = (⊤ : EReal) := by
  simp [Ideal.ofBits, Ideal.ieee]

/-- An extended real x with max x (−x) < +∞ is a real number: both infinities have absolute value ⊤. -/
theorem real_of_abs_lt_top (x : EReal)
    (h : Ideal.cmp .olt (max x (-x)) (Ideal.ofBits .f32 0x7F800000#32) = 1#1) : ∃ r : ℝ, x = (r : EReal) := by
  rw [infW_eq] at h
  induction x using EReal.rec with
  | bot => simp [Ideal.cmp] at h
  | coe r => exact ⟨r, rfl⟩
  | top => simp [Ideal.cmp] at h

/-- One conjunct of the precondition, for an array a of any shape: if "all entries have |x| < +∞" is true,
    every entry of a is a real number. -/
theorem allReal_of_all_abs_lt_top {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a) (broadcastInDim s ![] hb (constant Cert.Pre_finite_inputs.S_ .f32 0x7F800000#32)))
          (constantI Cert.Pre_finite_inputs.S_ 1 1#1) hr hu ValueIdx.ix0 = 1#1) : AllReal a := by
  intro i
  -- the "all" is true, so the comparison at index i is true; there it reads max (a i) (−(a i)) < +∞
  have hi := Host.reduce_andi_all _ _ hr hu ValueIdx.ix0 e i
  exact real_of_abs_lt_top (a i) hi

/-- A conjunction of two truth values that is true has both parts true. -/
theorem and_parts {x y : IVec Cert.Pre_finite_inputs.S_ 1} (h : andi x y ValueIdx.ix0 = 1#1) :
    x ValueIdx.ix0 = 1#1 ∧ y ValueIdx.ix0 = 1#1 :=
  IntOp.andi_eq_one.1 h

/-- Under the precondition (every input entry finite), the three binarised weight matrices hold real numbers. -/
theorem weights_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg1)) ∧ AllReal (m ((c.tc : Thread Cert.KernelIdeal.nD Cert.KernelIdeal.τ).loc Cert.KernelIdeal.main_arg3)) ∧ AllReal (m ((c.tc : Thread Cert.KernelIdeal.nD Cert.KernelIdeal.τ).loc Cert.KernelIdeal.main_arg5)) := by
  -- the precondition at its one index, written out as the left-nested conjunction of its 21 conjuncts
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h0
  -- drop the conjuncts of arguments 20 down to 6
  iterate 15 replace h0 := (and_parts h0).1
  -- (… ∧ c₄) ∧ c₅
  obtain ⟨h0, e5⟩ := and_parts h0
  -- drop c₄; then (… ∧ c₂) ∧ c₃
  replace h0 := (and_parts h0).1
  obtain ⟨h0, e3⟩ := and_parts h0
  -- drop c₂; what is left is c₀ ∧ c₁
  replace h0 := (and_parts h0).1
  have e1 := (and_parts h0).2
  exact ⟨allReal_of_all_abs_lt_top _ _ _ _ e1, allReal_of_all_abs_lt_top _ _ _ _ e3,
    allReal_of_all_abs_lt_top _ _ _ _ e5⟩

end Cert.Finite

end
-- ==== Proof.lean ====
/-
  A four-layer network with binarised weights, over 16384 input rows of 784 features: three hidden layers of 768
  units (product with the SIGN matrix of the weights, bias, batch normalisation with fixed statistics, clamp to
  [−1, 1]; layers two and three read the signs of the layer before), a plain linear layer to 10 classes, and the
  logarithm of the softmax along the classes. The kernel runs 32 grid points, each taking 512 rows through the whole
  network with every parameter resident; the reference runs the same layers on all rows at once.

  At the ideal instance a change of float format is the identity, the kernel's product into a zero accumulator is
  the reference's contraction, and both spell the batch norm, the clamp, the maximum, the exponentials, their sum
  and the logarithm by the same exact operations on the extended reals. Two spellings differ. The reference writes a
  sign as t + (sign t − t): for a real t that is sign t, and t is real where it is used — a weight entry by the
  precondition (every input entry finite), a hidden activation because it was clamped to [−1, 1]. And the
  reference's row maximum is joined once more with −∞, which changes nothing.

  So both result arrays are ONE function of the argument arrays: entry (r, c) is the network (Proof/BinNet.lean)
  on row r of the input, at class c. The kernel's side of this is read off its frame run block by block
  (Proof/KernelRow.lean: one entry of a stored block; Proof/KernelValue.lean: the blocks tile the array). The
  reference's side is its run (Proof/RefRunOps.lean, Proof/RefRun.lean) read one operation at a time
  (Proof/RefRead.lean, Proof/RefReadRun.lean) and then layer by layer (Proof/RefHidden.lean, Proof/RefTail.lean).
  The weights' finiteness is decoded from the precondition in Proof/Finite.lean. The kernels' frames are their runs
  with the values dropped, the reference's likewise; the idealisation rewrote no operation, so there is nothing to
  preserve.
-/
import proofs.«177683_j45140106281104_1_alg».proof.Defs
import proofs.«177683_j45140106281104_1_alg».proof.Proof.Gen.Kernel
import proofs.«177683_j45140106281104_1_alg».proof.Proof.Gen.Kernel.Skeleton
import proofs.«177683_j45140106281104_1_alg».proof.Proof.Gen.Kernel.Launch
import proofs.«177683_j45140106281104_1_alg».proof.Proof.Gen.Kernel.Points
import proofs.«177683_j45140106281104_1_alg».proof.Proof.Gen.Kernel.Frame
import proofs.«177683_j45140106281104_1_alg».proof.Proof.Gen.KernelIdeal
import proofs.«177683_j45140106281104_1_alg».proof.Proof.Gen.KernelIdeal.Skeleton
import proofs.«177683_j45140106281104_1_alg».proof.Proof.Gen.KernelIdeal.Launch
import proofs.«177683_j45140106281104_1_alg».proof.Proof.Gen.KernelIdeal.Points
import proofs.«177683_j45140106281104_1_alg».proof.Proof.Gen.KernelIdeal.Frame
import proofs.«177683_j45140106281104_1_alg».proof.Proof.Gen.ReferenceIdeal
import proofs.«177683_j45140106281104_1_alg».proof.Proof.Gen.Pre_finite_inputs
import proofs.«177683_j45140106281104_1_alg».proof.Proof.Gen.KernelIdeal.Value
import proofs.«177683_j45140106281104_1_alg».proof.Proof.KernelValue
import proofs.«177683_j45140106281104_1_alg».proof.Proof.RefTail
import proofs.«177683_j45140106281104_1_alg».proof.Proof.RefReadRun
import proofs.«177683_j45140106281104_1_alg».proof.Proof.Finite
import Idealize.ShloMosaic.Adequacy
import Idealize.ShloMosaic.Init

noncomputable section

namespace Cert.Proof

open Idealize.ShloMosaic Idealize.SL.Sem Cert.Kernel

/-- The kernel as printed runs and leaves its arguments alone: the generated frame. -/
theorem frame_kernel [Cert.Kernel.Facts] [Cert.Pre_finite_inputs.Facts] : Cert.frame_Kernel :=
  fun m ρ _ => Cert.Kernel.Gen.frame m ρ

/-- So does the idealised kernel. -/
theorem frame_kernelIdeal [Cert.KernelIdeal.Facts] [Cert.Pre_finite_inputs.Facts] : Cert.frame_KernelIdeal :=
  fun m ρ _ => Cert.KernelIdeal.Gen.frame m ρ

/-- The reference's frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- From memories that agree on the arguments both programs end with the network of the arguments in their result
    arrays: the kernel by its run read block by block, the reference by its run read operation by operation, where
    the weights are real by the precondition. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.BinNet.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    Cert.KernelValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨w1, w3, w5⟩ := Cert.Finite.weights_real m hpre c
  obtain ⟨a0, a1, a2, a3, a4, a5, a6, a7, a8, a9, a10, a11, a12, a13, a14, a15, a16, a17, a18, a19, a20⟩ := hagree c
  rw [Cert.ReferenceIdeal.ReadP.val_main_v92_eq, a0, a1, a2, a3, a4, a5, a6, a7, a8, a9, a10, a11, a12, a13, a14, a15, a16, a17, a18, a19, a20]
  exact Cert.RefNet.ref_eq _ _ _ _ _ _ _ _ _ _ _ _ _ _ _ _ _ _ _ _ _ w1 w3 w5

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
